-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) →
    ∃ (v0 : (c : Dev Cert.KernelIdeal.nD) → Buf (Elt Ideal) ((c.tc : Thread Cert.KernelIdeal.nD Cert.KernelIdeal.τ).loc Cert.KernelIdeal.main_v7)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v7) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v25) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S10000x512 : Shape := ⟨2, ![10000, 512]⟩
abbrev S10000x10000 : Shape := ⟨2, ![10000, 10000]⟩
abbrev S512x512 : Shape := ⟨2, ![512, 512]⟩
abbrev S512 : Shape := ⟨1, ![512]⟩
abbrev S512x1 : Shape := ⟨2, ![512, 1]⟩
abbrev S1 : Shape := ⟨1, ![1]⟩
abbrev S_ : Shape := ⟨0, ![]⟩

class Facts : Prop where
  bcast_S_S10000x512 : S_.BroadcastsInDim S10000x512 (![] : Fin 0 → Fin S10000x512.rank)
  reducesTo_S10000x512_S_d0_1 : S10000x512.ReducesTo [0, 1] S_
  h_S_ : 0 < S_.numel
  bcast_S_S10000x10000 : S_.BroadcastsInDim S10000x10000 (![] : Fin 0 → Fin S10000x10000.rank)
  reducesTo_S10000x10000_S_d0_1 : S10000x10000.ReducesTo [0, 1] S_
  bcast_S_S512x512 : S_.BroadcastsInDim S512x512 (![] : Fin 0 → Fin S512x512.rank)
  reducesTo_S512x512_S_d0_1 : S512x512.ReducesTo [0, 1] S_
  bcast_S_S512 : S_.BroadcastsInDim S512 (![] : Fin 0 → Fin S512.rank)
  reducesTo_S512_S_d0 : S512.ReducesTo [0] S_
  bcast_S_S512x1 : S_.BroadcastsInDim S512x1 (![] : Fin 0 → Fin S512x1.rank)
  reducesTo_S512x1_S_d0_1 : S512x1.ReducesTo [0, 1] S_
  bcast_S_S1 : S_.BroadcastsInDim S1 (![] : Fin 0 → Fin S1.rank)
  reducesTo_S1_S_d0 : S1.ReducesTo [0] S_

variable [Facts]

def fn_part2 {F : FTy → Type} [FloatOps F] (main_arg7 : FVec F S1 .f32) (main_v33 : IVec S_ 1) : IVec S_ 1 :=
  let main_v34 : FVec F S1 .f32 := Host.absf main_arg7
  let main_cst_12 : FVec F S_ .f32 := constant S_ .f32 0x7F800000#32
  let main_v35 : FVec F S1 .f32 := broadcastInDim S1 ![] bcast_S_S1 main_cst_12
  let main_v36 : IVec S1 1 := cmpf .olt main_v34 main_v35
  let main_c_13 : IVec S_ 1 := constantI S_ 1 1#1
  let main_v37 : IVec S_ 1 := (fun x v => Host.reduce IntOp.andi x v reducesTo_S1_S_d0 h_S_) main_v36 main_c_13
  let main_v38 : IVec S_ 1 := andi main_v33 main_v37
  main_v38

def fn_part1 {F : FTy → Type} [FloatOps F] (main_arg4 : FVec F S512x512 .f32) (main_arg5 : FVec F S512 .f32) (main_arg6 : FVec F S512x1 .f32) (main_arg7 : FVec F S1 .f32) (main_v13 : IVec S_ 1) (main_v16 : IVec S512 1) : IVec S_ 1 :=
  let main_c_5 : IVec S_ 1 := constantI S_ 1 1#1
  let main_v17 : IVec S_ 1 := (fun x v => Host.reduce IntOp.andi x v reducesTo_S512_S_d0 h_S_) main_v16 main_c_5
  let main_v18 : IVec S_ 1 := andi main_v13 main_v17
  let main_v19 : FVec F S512x512 .f32 := Host.absf main_arg4
  let main_cst_6 : FVec F S_ .f32 := constant S_ .f32 0x7F800000#32
  let main_v20 : FVec F S512x512 .f32 := broadcastInDim S512x512 ![] bcast_S_S512x512 main_cst_6
  let main_v21 : IVec S512x512 1 := cmpf .olt main_v19 main_v20
  let main_c_7 : IVec S_ 1 := constantI S_ 1 1#1
  let main_v22 : IVec S_ 1 := (fun x v => Host.reduce IntOp.andi x v reducesTo_S512x512_S_d0_1 h_S_) main_v21 main_c_7
  let main_v23 : IVec S_ 1 := andi main_v18 main_v22
  let main_v24 : FVec F S512 .f32 := Host.absf main_arg5
  let main_cst_8 : FVec F S_ .f32 := constant S_ .f32 0x7F800000#32
  let main_v25 : FVec F S512 .f32 := broadcastInDim S512 ![] bcast_S_S512 main_cst_8
  let main_v26 : IVec S512 1 := cmpf .olt main_v24 main_v25
  let main_c_9 : IVec S_ 1 := constantI S_ 1 1#1
  let main_v27 : IVec S_ 1 := (fun x v => Host.reduce IntOp.andi x v reducesTo_S512_S_d0 h_S_) main_v26 main_c_9
  let main_v28 : IVec S_ 1 := andi main_v23 main_v27
  let main_v29 : FVec F S512x1 .f32 := Host.absf main_arg6
  let main_cst_10 : FVec F S_ .f32 := constant S_ .f32 0x7F800000#32
  let main_v30 : FVec F S512x1 .f32 := broadcastInDim S512x1 ![] bcast_S_S512x1 main_cst_10
  let main_v31 : IVec S512x1 1 := cmpf .olt main_v29 main_v30
  let main_c_11 : IVec S_ 1 := constantI S_ 1 1#1
  let main_v32 : IVec S_ 1 := (fun x v => Host.reduce IntOp.andi x v reducesTo_S512x1_S_d0_1 h_S_) main_v31 main_c_11
  let main_v33 : IVec S_ 1 := andi main_v28 main_v32
  fn_part2 (F := F) main_arg7 main_v33

def fn {F : FTy → Type} [FloatOps F] (main_arg0 : FVec F S10000x512 .f32) (main_arg1 : FVec F S10000x10000 .f32) (main_arg2 : FVec F S512x512 .f32) (main_arg3 : FVec F S512 .f32) (main_arg4 : FVec F S512x512 .f32) (main_arg5 : FVec F S512 .f32) (main_arg6 : FVec F S512x1 .f32) (main_arg7 : FVec F S1 .f32) : IVec S_ 1 :=
  let main_v0 : FVec F S10000x512 .f32 := Host.absf main_arg0
  let main_cst : FVec F S_ .f32 := constant S_ .f32 0x7F800000#32
  let main_v1 : FVec F S10000x512 .f32 := broadcastInDim S10000x512 ![] bcast_S_S10000x512 main_cst
  let main_v2 : IVec S10000x512 1 := cmpf .olt main_v0 main_v1
  let main_c : IVec S_ 1 := constantI S_ 1 1#1
  let main_v3 : IVec S_ 1 := (fun x v => Host.reduce IntOp.andi x v reducesTo_S10000x512_S_d0_1 h_S_) main_v2 main_c
  let main_v4 : FVec F S10000x10000 .f32 := Host.absf main_arg1
  let main_cst_0 : FVec F S_ .f32 := constant S_ .f32 0x7F800000#32
  let main_v5 : FVec F S10000x10000 .f32 := broadcastInDim S10000x10000 ![] bcast_S_S10000x10000 main_cst_0
  let main_v6 : IVec S10000x10000 1 := cmpf .olt main_v4 main_v5
  let main_c_1 : IVec S_ 1 := constantI S_ 1 1#1
  let main_v7 : IVec S_ 1 := (fun x v => Host.reduce IntOp.andi x v reducesTo_S10000x10000_S_d0_1 h_S_) main_v6 main_c_1
  let main_v8 : IVec S_ 1 := andi main_v3 main_v7
  let main_v9 : FVec F S512x512 .f32 := Host.absf main_arg2
  let main_cst_2 : FVec F S_ .f32 := constant S_ .f32 0x7F800000#32
  let main_v10 : FVec F S512x512 .f32 := broadcastInDim S512x512 ![] bcast_S_S512x512 main_cst_2
  let main_v11 : IVec S512x512 1 := cmpf .olt main_v9 main_v10
  let main_c_3 : IVec S_ 1 := constantI S_ 1 1#1
  let main_v12 : IVec S_ 1 := (fun x v => Host.reduce IntOp.andi x v reducesTo_S512x512_S_d0_1 h_S_) main_v11 main_c_3
  let main_v13 : IVec S_ 1 := andi main_v8 main_v12
  let main_v14 : FVec F S512 .f32 := Host.absf main_arg3
  let main_cst_4 : FVec F S_ .f32 := constant S_ .f32 0x7F800000#32
  let main_v15 : FVec F S512 .f32 := broadcastInDim S512 ![] bcast_S_S512 main_cst_4
  let main_v16 : IVec S512 1 := cmpf .olt main_v14 main_v15
  fn_part1 (F := F) main_arg4 main_arg5 main_arg6 main_arg7 main_v13 main_v16
-- ==== Kernel.lean ====
abbrev S10000x512 : Shape := ⟨2, ![10000, 512]⟩
abbrev S10000x10000 : Shape := ⟨2, ![10000, 10000]⟩
abbrev S512x512 : Shape := ⟨2, ![512, 512]⟩
abbrev S512 : Shape := ⟨1, ![512]⟩
abbrev S512x1 : Shape := ⟨2, ![512, 1]⟩
abbrev S1 : Shape := ⟨1, ![1]⟩
abbrev S1x512 : Shape := ⟨2, ![1, 512]⟩
abbrev S1x1 : Shape := ⟨2, ![1, 1]⟩
abbrev S10000x1 : Shape := ⟨2, ![10000, 1]⟩
abbrev S400x10000 : Shape := ⟨2, ![400, 10000]⟩
abbrev S400x512 : Shape := ⟨2, ![400, 512]⟩
abbrev S400x1 : Shape := ⟨2, ![400, 1]⟩
abbrev S400 : Shape := ⟨1, ![400]⟩
abbrev S1x10000 : Shape := ⟨2, ![1, 10000]⟩

abbrev nBuf : Space → Nat
  | .hbm => 17
  | .vmem => 30
  | .smem => 0
  | _ => 0

abbrev bufTy : (tb : Table) → Fin (tcTables nBuf tb) → BufTy
  | .hbm, ⟨0, _⟩ => ⟨S10000x512, .f32⟩
  | .hbm, ⟨1, _⟩ => ⟨S10000x10000, .f32⟩
  | .hbm, ⟨2, _⟩ => ⟨S512x512, .f32⟩
  | .hbm, ⟨3, _⟩ => ⟨S512, .f32⟩
  | .hbm, ⟨4, _⟩ => ⟨S512x512, .f32⟩
  | .hbm, ⟨5, _⟩ => ⟨S512, .f32⟩
  | .hbm, ⟨6, _⟩ => ⟨S512x1, .f32⟩
  | .hbm, ⟨7, _⟩ => ⟨S1, .f32⟩
  | .hbm, ⟨8, _⟩ => ⟨S1x512, .f32⟩
  | .hbm, ⟨9, _⟩ => ⟨S1x512, .f32⟩
  | .hbm, ⟨10, _⟩ => ⟨S1x1, .f32⟩
  | .hbm, ⟨11, _⟩ => ⟨S10000x1, .f32⟩
  | .hbm, ⟨12, _⟩ => ⟨S10000x512, .bf16⟩
  | .hbm, ⟨13, _⟩ => ⟨S1x10000, .f32⟩
  | .hbm, ⟨14, _⟩ => ⟨S512x512, .bf16⟩
  | .hbm, ⟨15, _⟩ => ⟨S10000x512, .bf16⟩
  | .hbm, ⟨16, _⟩ => ⟨S10000x1, .f32⟩
  | .local _ .vmem, ⟨0, _⟩ => ⟨S400x10000, .f32⟩
  | .local _ .vmem, ⟨1, _⟩ => ⟨S400x10000, .f32⟩
  | .local _ .vmem, ⟨2, _⟩ => ⟨S400x512, .f32⟩
  | .local _ .vmem, ⟨3, _⟩ => ⟨S400x512, .f32⟩
  | .local _ .vmem, ⟨4, _⟩ => ⟨S512x512, .f32⟩
  | .local _ .vmem, ⟨5, _⟩ => ⟨S400x1, .f32⟩
  | .local _ .vmem, ⟨6, _⟩ => ⟨S400x1, .f32⟩
  | .local _ .vmem, ⟨7, _⟩ => ⟨S400x512, .bf16⟩
  | .local _ .vmem, ⟨8, _⟩ => ⟨S400x512, .bf16⟩
  | .local _ .vmem, ⟨9, _⟩ => ⟨S400x10000, .f32⟩
  | .local _ .vmem, ⟨10, _⟩ => ⟨S400x10000, .f32⟩
  | .local _ .vmem, ⟨11, _⟩ => ⟨S400x1, .f32⟩
  | .local _ .vmem, ⟨12, _⟩ => ⟨S400x1, .f32⟩
  | .local _ .vmem, ⟨13, _⟩ => ⟨S1x10000, .f32⟩
  | .local _ .vmem, ⟨14, _⟩ => ⟨S10000x512, .bf16⟩
  | .local _ .vmem, ⟨15, _⟩ => ⟨S1x512, .f32⟩
  | .local _ .vmem, ⟨16, _⟩ => ⟨S512x512, .bf16⟩
  | .local _ .vmem, ⟨17, _⟩ => ⟨S400x512, .bf16⟩
  | .local _ .vmem, ⟨18, _⟩ => ⟨S400x512, .bf16⟩
  | .local _ .vmem, ⟨19, _⟩ => ⟨S400x10000, .f32⟩
  | .local _ .vmem, ⟨20, _⟩ => ⟨S400x10000, .f32⟩
  | .local _ .vmem, ⟨21, _⟩ => ⟨S400x1, .f32⟩
  | .local _ .vmem, ⟨22, _⟩ => ⟨S400x1, .f32⟩
  | .local _ .vmem, ⟨23, _⟩ => ⟨S1x10000, .f32⟩
  | .local _ .vmem, ⟨24, _⟩ => ⟨S10000x512, .bf16⟩
  | .local _ .vmem, ⟨25, _⟩ => ⟨S1x512, .f32⟩
  | .local _ .vmem, ⟨26, _⟩ => ⟨S512x1, .f32⟩
  | .local _ .vmem, ⟨27, _⟩ => ⟨S1x1, .f32⟩
  | .local _ .vmem, ⟨28, _⟩ => ⟨S400x1, .f32⟩
  | .local _ .vmem, ⟨29, _⟩ => ⟨S400x1, .f32⟩
  | _, _ => ⟨S10000x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | _, _ => false

abbrev semScoped : Fin 0 → Bool
  | ⟨_, h⟩ => absurd h (Nat.not_lt_zero _)

abbrev dmaSemScoped : Fin 30 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | _ => false

abbrev sig : RefSig :=
  ofTc nBuf bufTy 0 30 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3_0 : Ref sig .tc := ⟨.hbm, 11, rfl⟩
abbrev main_v3_1 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc1_stg0_0 : Ref sig .tc := ⟨.vmem, 9, rfl⟩
abbrev cc1_stg0_1 : Ref sig .tc := ⟨.vmem, 10, rfl⟩
abbrev cc1_stg1_0 : Ref sig .tc := ⟨.vmem, 11, rfl⟩
abbrev cc1_stg1_1 : Ref sig .tc := ⟨.vmem, 12, rfl⟩
abbrev cc1_stg2_0 : Ref sig .tc := ⟨.vmem, 13, rfl⟩
abbrev cc1_stg3_0 : Ref sig .tc := ⟨.vmem, 14, rfl⟩
abbrev cc1_stg4_0 : Ref sig .tc := ⟨.vmem, 15, rfl⟩
abbrev cc1_stg5_0 : Ref sig .tc := ⟨.vmem, 16, rfl⟩
abbrev cc1_stg6_0 : Ref sig .tc := ⟨.vmem, 17, rfl⟩
abbrev cc1_stg6_1 : Ref sig .tc := ⟨.vmem, 18, rfl⟩
abbrev cc2_stg0_0 : Ref sig .tc := ⟨.vmem, 19, rfl⟩
abbrev cc2_stg0_1 : Ref sig .tc := ⟨.vmem, 20, rfl⟩
abbrev cc2_stg1_0 : Ref sig .tc := ⟨.vmem, 21, rfl⟩
abbrev cc2_stg1_1 : Ref sig .tc := ⟨.vmem, 22, rfl⟩
abbrev cc2_stg2_0 : Ref sig .tc := ⟨.vmem, 23, rfl⟩
abbrev cc2_stg3_0 : Ref sig .tc := ⟨.vmem, 24, rfl⟩
abbrev cc2_stg4_0 : Ref sig .tc := ⟨.vmem, 25, rfl⟩
abbrev cc2_stg5_0 : Ref sig .tc := ⟨.vmem, 26, rfl⟩
abbrev cc2_stg6_0 : Ref sig .tc := ⟨.vmem, 27, rfl⟩
abbrev cc2_stg7_0 : Ref sig .tc := ⟨.vmem, 28, rfl⟩
abbrev cc2_stg7_1 : Ref sig .tc := ⟨.vmem, 29, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6
abbrev cc0_sem4_0 : DmaSem sig := 7
abbrev cc0_sem4_1 : DmaSem sig := 8
abbrev cc1_sem0_0 : DmaSem sig := 9
abbrev cc1_sem0_1 : DmaSem sig := 10
abbrev cc1_sem1_0 : DmaSem sig := 11
abbrev cc1_sem1_1 : DmaSem sig := 12
abbrev cc1_sem2_0 : DmaSem sig := 13
abbrev cc1_sem3_0 : DmaSem sig := 14
abbrev cc1_sem4_0 : DmaSem sig := 15
abbrev cc1_sem5_0 : DmaSem sig := 16
abbrev cc1_sem6_0 : DmaSem sig := 17
abbrev cc1_sem6_1 : DmaSem sig := 18
abbrev cc2_sem0_0 : DmaSem sig := 19
abbrev cc2_sem0_1 : DmaSem sig := 20
abbrev cc2_sem1_0 : DmaSem sig := 21
abbrev cc2_sem1_1 : DmaSem sig := 22
abbrev cc2_sem2_0 : DmaSem sig := 23
abbrev cc2_sem3_0 : DmaSem sig := 24
abbrev cc2_sem4_0 : DmaSem sig := 25
abbrev cc2_sem5_0 : DmaSem sig := 26
abbrev cc2_sem6_0 : DmaSem sig := 27
abbrev cc2_sem7_0 : DmaSem sig := 28
abbrev cc2_sem7_1 : DmaSem sig := 29

abbrev nD : Nat := 1
abbrev τ : Topo := Topo.v7x

variable {F : FTy → Type} [FloatOps F]

abbrev grid0 : Pipeline.Grid := ⟨1, ![25], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S400x10000 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S400x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S512x512 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S400x1 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S400x512 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev grid1 : Pipeline.Grid := ⟨1, ![25], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_6 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S400x10000 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S400x1 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S1x10000 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S10000x512 .bf16 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S1x512 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 1 → Memref sig .tc .vmem S512x512 .bf16 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

abbrev stage1_6 : Fin 2 → Memref sig .tc .vmem S400x512 .bf16 := fun | 0 => Memref.whole cc1_stg6_0 | 1 => Memref.whole cc1_stg6_1 | ⟨_ + 2, h⟩ => absurd h (Nat.not_lt.2 (Nat.le_add_left _ _))
abbrev sem1_6 : Fin 2 → DmaSem sig := fun | 0 => cc1_sem6_0 | 1 => cc1_sem6_1 | ⟨_ + 2, h⟩ => absurd h (Nat.not_lt.2 (Nat.le_add_left _ _))
abbrev reads1_6 : Fin grid1.rank → Bool := ![true]

abbrev grid2 : Pipeline.Grid := ⟨1, ![25], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_5 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_6 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_7 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S400x10000 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S400x1 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 1 → Memref sig .tc .vmem S1x10000 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 1 → Memref sig .tc .vmem S10000x512 .bf16 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 1 → Memref sig .tc .vmem S1x512 .f32 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![false]

abbrev stage2_5 : Fin 1 → Memref sig .tc .vmem S512x1 .f32 := fun | 0 => Memref.whole cc2_stg5_0 | ⟨_ + 1, h⟩ => absurd h (Nat.not_lt.2 (Nat.le_add_left _ _))
abbrev sem2_5 : Fin 1 → DmaSem sig := fun | 0 => cc2_sem5_0 | ⟨_ + 1, h⟩ => absurd h (Nat.not_lt.2 (Nat.le_add_left _ _))
abbrev reads2_5 : Fin grid2.rank → Bool := ![false]

abbrev stage2_6 : Fin 1 → Memref sig .tc .vmem S1x1 .f32 := fun | 0 => Memref.whole cc2_stg6_0 | ⟨_ + 1, h⟩ => absurd h (Nat.not_lt.2 (Nat.le_add_left _ _))
abbrev sem2_6 : Fin 1 → DmaSem sig := fun | 0 => cc2_sem6_0 | ⟨_ + 1, h⟩ => absurd h (Nat.not_lt.2 (Nat.le_add_left _ _))
abbrev reads2_6 : Fin grid2.rank → Bool := ![false]

abbrev stage2_7 : Fin 2 → Memref sig .tc .vmem S400x1 .f32 := fun | 0 => Memref.whole cc2_stg7_0 | 1 => Memref.whole cc2_stg7_1 | ⟨_ + 2, h⟩ => absurd h (Nat.not_lt.2 (Nat.le_add_left _ _))
abbrev sem2_7 : Fin 2 → DmaSem sig := fun | 0 => cc2_sem7_0 | 1 => cc2_sem7_1 | ⟨_ + 2, h⟩ => absurd h (Nat.not_lt.2 (Nat.le_add_left _ _))
abbrev reads2_7 : Fin grid2.rank → Bool := ![true]

class Facts₀ : Prop where
  shapeCasts_S512_S1x512 : S512.ShapeCasts S1x512
  shapeCasts_S1_S1x1 : S1.ShapeCasts S1x1
  inb_S400x10000_S400x10000_0_0 : ∀ a, (![0, 0] : Fin 2 → Nat) a + S400x10000.size a ≤ S400x10000.size a
  h_S400x10000 : 0 < S400x10000.numel
  reduces_S400x10000_S400 : S400x10000.Reduces [1] S400
  shapeCasts_S400_S400x1 : S400.ShapeCasts S400x1
  inb_S400x1_S400x1_0_0 : ∀ a, (![0, 0] : Fin 2 → Nat) a + S400x1.size a ≤ S400x1.size a
  h_S400x1 : 0 < S400x1.numel
  inb_S400x512_S400x512_0_0 : ∀ a, (![0, 0] : Fin 2 → Nat) a + S400x512.size a ≤ S400x512.size a
  h_S400x512 : 0 < S400x512.numel
  inb_S512x512_S512x512_0_0 : ∀ a, (![0, 0] : Fin 2 → Nat) a + S512x512.size a ≤ S512x512.size a
  h_S512x512 : 0 < S512x512.numel
  bitsLt_bf16_f32 : FTy.bits .bf16 < FTy.bits .f32
  packedbf16_S400x512_S400x512_0_0 : (Rect.unit (s := S400x512) ![0, 0] S400x512.size inb_S400x512_S400x512_0_0).PackedRows (EltTy.packing .bf16)
  shapeCasts_S10000x1_S1x10000 : S10000x1.ShapeCasts S1x10000
  shapeCasts_S400x1_S400x1 : S400x1.ShapeCasts S400x1
  broadcasts_S400x1_S400x10000 : S400x1.Broadcasts S400x10000
  inb_S1x10000_S1x10000_0_0 : ∀ a, (![0, 0] : Fin 2 → Nat) a + S1x10000.size a ≤ S1x10000.size a
  h_S1x10000 : 0 < S1x10000.numel
  shapeCasts_S1x10000_S1x10000 : S1x10000.ShapeCasts S1x10000
  broadcasts_S1x10000_S400x10000 : S1x10000.Broadcasts S400x10000
  inb_S10000x512_S10000x512_0_0 : ∀ a, (![0, 0] : Fin 2 → Nat) a + S10000x512.size a ≤ S10000x512.size a
  h_S10000x512 : 0 < S10000x512.numel
  shapeCasts_S10000x512_S10000x512 : S10000x512.ShapeCasts S10000x512
  inb_S1x512_S1x512_0_0 : ∀ a, (![0, 0] : Fin 2 → Nat) a + S1x512.size a ≤ S1x512.size a
  h_S1x512 : 0 < S1x512.numel
  shapeCasts_S1x512_S1x512 : S1x512.ShapeCasts S1x512
  broadcasts_S1x512_S400x512 : S1x512.Broadcasts S400x512
  shapeCasts_S512x512_S512x512 : S512x512.ShapeCasts S512x512
  inb_S512x1_S512x1_0_0 : ∀ a, (![0, 0] : Fin 2 → Nat) a + S512x1.size a ≤ S512x1.size a
  h_S512x1 : 0 < S512x1.numel
  inb_S1x1_S1x1_0_0 : ∀ a, (![0, 0] : Fin 2 → Nat) a + S1x1.size a ≤ S1x1.size a
  h_S1x1 : 0 < S1x1.numel
  shapeCasts_S1x1_S1x1 : S1x1.ShapeCasts S1x1
  broadcasts_S1x1_S400x1 : S1x1.Broadcasts S400x1
  dot_S400x512_S512x512_S400x512_1_0_0_1_n_n_wf : DotDims.WF S400x512 S512x512 S400x512 [1] [0] [0] [1] [] []
  dot_S400x10000_S10000x512_S400x512_1_0_0_1_n_n_wf : DotDims.WF S400x10000 S10000x512 S400x512 [1] [0] [0] [1] [] []
  dot_S400x512_S512x1_S400x1_1_0_0_1_n_n_wf : DotDims.WF S400x512 S512x1 S400x1 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S400x10000.size a ≤ S10000x10000.size a
  hwx0_0 : ∀ i : grid0.Coords, EltTy.bits .f32 = 32 ∨ (Rect.block (s := S10000x10000) S400x10000.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S400x512.size a ≤ S10000x512.size a
  hwx0_1 : ∀ i : grid0.Coords, EltTy.bits .f32 = 32 ∨ (Rect.block (s := S10000x512) S400x512.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S512x512.size a ≤ S512x512.size a
  hwx0_2 : ∀ i : grid0.Coords, EltTy.bits .f32 = 32 ∨ (Rect.block (s := S512x512) S512x512.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S400x1.size a ≤ S10000x1.size a
  hwx0_3 : ∀ i : grid0.Coords, EltTy.bits .f32 = 32 ∨ (Rect.block (s := S10000x1) S400x1.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S400x512.size a ≤ S10000x512.size a
  hwx0_4 : ∀ i : grid0.Coords, EltTy.bits .bf16 = 32 ∨ (Rect.block (s := S10000x512) S400x512.size (cc0_transform_4 i) (hinb0_4 i)).WholeWords (EltTy.packing .bf16)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S400x10000.size a ≤ S10000x10000.size a
  hwx1_0 : ∀ i : grid1.Coords, EltTy.bits .f32 = 32 ∨ (Rect.block (s := S10000x10000) S400x10000.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S400x1.size a ≤ S10000x1.size a
  hwx1_1 : ∀ i : grid1.Coords, EltTy.bits .f32 = 32 ∨ (Rect.block (s := S10000x1) S400x1.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S1x10000.size a ≤ S1x10000.size a
  hwx1_2 : ∀ i : grid1.Coords, EltTy.bits .f32 = 32 ∨ (Rect.block (s := S1x10000) S1x10000.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S10000x512.size a ≤ S10000x512.size a
  hwx1_3 : ∀ i : grid1.Coords, EltTy.bits .bf16 = 32 ∨ (Rect.block (s := S10000x512) S10000x512.size (cc1_transform_3 i) (hinb1_3 i)).WholeWords (EltTy.packing .bf16)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S1x512.size a ≤ S1x512.size a
  hwx1_4 : ∀ i : grid1.Coords, EltTy.bits .f32 = 32 ∨ (Rect.block (s := S1x512) S1x512.size (cc1_transform_4 i) (hinb1_4 i)).WholeWords (EltTy.packing .f32)
  hstage1_5 : ∀ j, (stage1_5 j).IsWhole
  nbuf1_5 : grid1.bufCount reads1_5 true = 1
  hreads1_5 : ∀ i i' : grid1.Coords, (∀ a, reads1_5 a = true → i a = i' a) → cc1_transform_5 i = cc1_transform_5 i'
  hinb1_5 : ∀ (i : grid1.Coords) a, (cc1_transform_5 i a + 1) * S512x512.size a ≤ S512x512.size a
  hwx1_5 : ∀ i : grid1.Coords, EltTy.bits .bf16 = 32 ∨ (Rect.block (s := S512x512) S512x512.size (cc1_transform_5 i) (hinb1_5 i)).WholeWords (EltTy.packing .bf16)
  hstage1_6 : ∀ j, (stage1_6 j).IsWhole
  nbuf1_6 : grid1.bufCount reads1_6 false = 2
  hreads1_6 : ∀ i i' : grid1.Coords, (∀ a, reads1_6 a = true → i a = i' a) → cc1_transform_6 i = cc1_transform_6 i'
  hinb1_6 : ∀ (i : grid1.Coords) a, (cc1_transform_6 i a + 1) * S400x512.size a ≤ S10000x512.size a
  hwx1_6 : ∀ i : grid1.Coords, EltTy.bits .bf16 = 32 ∨ (Rect.block (s := S10000x512) S400x512.size (cc1_transform_6 i) (hinb1_6 i)).WholeWords (EltTy.packing .bf16)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S400x10000.size a ≤ S10000x10000.size a
  hwx2_0 : ∀ i : grid2.Coords, EltTy.bits .f32 = 32 ∨ (Rect.block (s := S10000x10000) S400x10000.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S400x1.size a ≤ S10000x1.size a
  hwx2_1 : ∀ i : grid2.Coords, EltTy.bits .f32 = 32 ∨ (Rect.block (s := S10000x1) S400x1.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S1x10000.size a ≤ S1x10000.size a
  hwx2_2 : ∀ i : grid2.Coords, EltTy.bits .f32 = 32 ∨ (Rect.block (s := S1x10000) S1x10000.size (cc2_transform_2 i) (hinb2_2 i)).WholeWords (EltTy.packing .f32)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S10000x512.size a ≤ S10000x512.size a
  hwx2_3 : ∀ i : grid2.Coords, EltTy.bits .bf16 = 32 ∨ (Rect.block (s := S10000x512) S10000x512.size (cc2_transform_3 i) (hinb2_3 i)).WholeWords (EltTy.packing .bf16)
  hstage2_4 : ∀ j, (stage2_4 j).IsWhole
  nbuf2_4 : grid2.bufCount reads2_4 true = 1
  hreads2_4 : ∀ i i' : grid2.Coords, (∀ a, reads2_4 a = true → i a = i' a) → cc2_transform_4 i = cc2_transform_4 i'
  hinb2_4 : ∀ (i : grid2.Coords) a, (cc2_transform_4 i a + 1) * S1x512.size a ≤ S1x512.size a
  hwx2_4 : ∀ i : grid2.Coords, EltTy.bits .f32 = 32 ∨ (Rect.block (s := S1x512) S1x512.size (cc2_transform_4 i) (hinb2_4 i)).WholeWords (EltTy.packing .f32)
  hstage2_5 : ∀ j, (stage2_5 j).IsWhole
  nbuf2_5 : grid2.bufCount reads2_5 true = 1
  hreads2_5 : ∀ i i' : grid2.Coords, (∀ a, reads2_5 a = true → i a = i' a) → cc2_transform_5 i = cc2_transform_5 i'
  hinb2_5 : ∀ (i : grid2.Coords) a, (cc2_transform_5 i a + 1) * S512x1.size a ≤ S512x1.size a
  hwx2_5 : ∀ i : grid2.Coords, EltTy.bits .f32 = 32 ∨ (Rect.block (s := S512x1) S512x1.size (cc2_transform_5 i) (hinb2_5 i)).WholeWords (EltTy.packing .f32)
  hstage2_6 : ∀ j, (stage2_6 j).IsWhole
  nbuf2_6 : grid2.bufCount reads2_6 true = 1
  hreads2_6 : ∀ i i' : grid2.Coords, (∀ a, reads2_6 a = true → i a = i' a) → cc2_transform_6 i = cc2_transform_6 i'
  hinb2_6 : ∀ (i : grid2.Coords) a, (cc2_transform_6 i a + 1) * S1x1.size a ≤ S1x1.size a
  hwx2_6 : ∀ i : grid2.Coords, EltTy.bits .f32 = 32 ∨ (Rect.block (s := S1x1) S1x1.size (cc2_transform_6 i) (hinb2_6 i)).WholeWords (EltTy.packing .f32)
  hstage2_7 : ∀ j, (stage2_7 j).IsWhole
  nbuf2_7 : grid2.bufCount reads2_7 false = 2
  hreads2_7 : ∀ i i' : grid2.Coords, (∀ a, reads2_7 a = true → i a = i' a) → cc2_transform_7 i = cc2_transform_7 i'
  hinb2_7 : ∀ (i : grid2.Coords) a, (cc2_transform_7 i a + 1) * S400x1.size a ≤ S10000x1.size a
  hwx2_7 : ∀ i : grid2.Coords, EltTy.bits .f32 = 32 ∨ (Rect.block (s := S10000x1) S400x1.size (cc2_transform_7 i) (hinb2_7 i)).WholeWords (EltTy.packing .f32)

variable [Facts₀]

def dot_S400x512_S512x512_S400x512_1_0_0_1_n_n : DotDims S400x512 S512x512 S400x512 where
  lhsContracting := [1]
  rhsContracting := [0]
  lhsNonContracting := [0]
  rhsNonContracting := [1]
  lhsBatch := []
  rhsBatch := []
  wf := dot_S400x512_S512x512_S400x512_1_0_0_1_n_n_wf
def dot_S400x10000_S10000x512_S400x512_1_0_0_1_n_n : DotDims S400x10000 S10000x512 S400x512 where
  lhsContracting := [1]
  rhsContracting := [0]
  lhsNonContracting := [0]
  rhsNonContracting := [1]
  lhsBatch := []
  rhsBatch := []
  wf := dot_S400x10000_S10000x512_S400x512_1_0_0_1_n_n_wf
def dot_S400x512_S512x1_S400x1_1_0_0_1_n_n : DotDims S400x512 S512x1 S400x1 where
  lhsContracting := [1]
  rhsContracting := [0]
  lhsNonContracting := [0]
  rhsNonContracting := [1]
  lhsBatch := []
  rhsBatch := []
  wf := dot_S400x512_S512x1_S400x1_1_0_0_1_n_n_wf

abbrev win0_0 : Pipeline.Window sig grid0 :=
  Pipeline.Window.ofSpec (Memref.whole main_arg1) S400x10000.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg0) S400x512.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S512x512.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v3_0) S400x1.size cc0_transform_3 reads0_3 true false 2 stage0_3 sem0_3
    hrank0 hreads0_3 hinb0_3 nbuf0_3 (Memref.isWhole_whole _) hwx0_3 hstage0_3

abbrev win0_4 : Pipeline.Window sig grid0 :=
  Pipeline.Window.ofSpec (Memref.whole main_v3_1) S400x512.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

abbrev win1_0 : Pipeline.Window sig grid1 :=
  Pipeline.Window.ofSpec (Memref.whole main_arg1) S400x10000.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v3_0) S400x1.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v4) S1x10000.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v3_1) S10000x512.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v0) S1x512.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v5) S512x512.size cc1_transform_5 reads1_5 false true 1 stage1_5 sem1_5
    hrank1 hreads1_5 hinb1_5 nbuf1_5 (Memref.isWhole_whole _) hwx1_5 hstage1_5

abbrev win1_6 : Pipeline.Window sig grid1 :=
  Pipeline.Window.ofSpec (Memref.whole main_v6) S400x512.size cc1_transform_6 reads1_6 true false 2 stage1_6 sem1_6
    hrank1 hreads1_6 hinb1_6 nbuf1_6 (Memref.isWhole_whole _) hwx1_6 hstage1_6

abbrev win1 : Fin 7 → Pipeline.Window sig grid1 := fun | 0 => win1_0 | 1 => win1_1 | 2 => win1_2 | 3 => win1_3 | 4 => win1_4 | 5 => win1_5 | 6 => win1_6 | ⟨_ + 7, h⟩ => absurd h (Nat.not_lt.2 (Nat.le_add_left _ _))
abbrev spec1 : Fin 7 → Pipeline.WinSpec sig grid1.rank := fun w => (win1 w).toWinSpec

abbrev win2_0 : Pipeline.Window sig grid2 :=
  Pipeline.Window.ofSpec (Memref.whole main_arg1) S400x10000.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v3_0) S400x1.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_v4) S1x10000.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_v6) S10000x512.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_v1) S1x512.size cc2_transform_4 reads2_4 false true 1 stage2_4 sem2_4
    hrank2 hreads2_4 hinb2_4 nbuf2_4 (Memref.isWhole_whole _) hwx2_4 hstage2_4

abbrev win2_5 : Pipeline.Window sig grid2 :=
  Pipeline.Window.ofSpec (Memref.whole main_arg6) S512x1.size cc2_transform_5 reads2_5 false true 1 stage2_5 sem2_5
    hrank2 hreads2_5 hinb2_5 nbuf2_5 (Memref.isWhole_whole _) hwx2_5 hstage2_5

abbrev win2_6 : Pipeline.Window sig grid2 :=
  Pipeline.Window.ofSpec (Memref.whole main_v2) S1x1.size cc2_transform_6 reads2_6 false true 1 stage2_6 sem2_6
    hrank2 hreads2_6 hinb2_6 nbuf2_6 (Memref.isWhole_whole _) hwx2_6 hstage2_6

abbrev win2_7 : Pipeline.Window sig grid2 :=
  Pipeline.Window.ofSpec (Memref.whole main_v7) S400x1.size cc2_transform_7 reads2_7 true false 2 stage2_7 sem2_7
    hrank2 hreads2_7 hinb2_7 nbuf2_7 (Memref.isWhole_whole _) hwx2_7 hstage2_7

abbrev win2 : Fin 8 → Pipeline.Window sig grid2 := fun | 0 => win2_0 | 1 => win2_1 | 2 => win2_2 | 3 => win2_3 | 4 => win2_4 | 5 => win2_5 | 6 => win2_6 | 7 => win2_7 | ⟨_ + 8, h⟩ => absurd h (Nat.not_lt.2 (Nat.le_add_left _ _))
abbrev spec2 : Fin 8 → Pipeline.WinSpec sig grid2.rank := fun w => (win2 w).toWinSpec

class Facts : Prop extends Facts₀ where

variable [Facts]
-- ==== ReferenceIdeal.lean ====
abbrev S10000x512 : Shape := ⟨2, ![10000, 512]⟩
abbrev S10000x10000 : Shape := ⟨2, ![10000, 10000]⟩
abbrev S512x512 : Shape := ⟨2, ![512, 512]⟩
abbrev S512 : Shape := ⟨1, ![512]⟩
abbrev S512x1 : Shape := ⟨2, ![512, 1]⟩
abbrev S1 : Shape := ⟨1, ![1]⟩
abbrev S_ : Shape := ⟨0, ![]⟩
abbrev S10000 : Shape := ⟨1, ![10000]⟩
abbrev S10000x1 : Shape := ⟨2, ![10000, 1]⟩
abbrev S1x10000 : Shape := ⟨2, ![1, 10000]⟩
abbrev S1x512 : Shape := ⟨2, ![1, 512]⟩
abbrev S1x1 : Shape := ⟨2, ![1, 1]⟩

abbrev nBuf : Space → Nat
  | .hbm => 40
  | .vmem => 0
  | .smem => 0
  | _ => 0

abbrev bufTy : (tb : Table) → Fin (tcTables nBuf tb) → BufTy
  | .hbm, ⟨0, _⟩ => ⟨S10000x512, .f32⟩
  | .hbm, ⟨1, _⟩ => ⟨S10000x10000, .f32⟩
  | .hbm, ⟨2, _⟩ => ⟨S512x512, .f32⟩
  | .hbm, ⟨3, _⟩ => ⟨S512, .f32⟩
  | .hbm, ⟨4, _⟩ => ⟨S512x512, .f32⟩
  | .hbm, ⟨5, _⟩ => ⟨S512, .f32⟩
  | .hbm, ⟨6, _⟩ => ⟨S512x1, .f32⟩
  | .hbm, ⟨7, _⟩ => ⟨S1, .f32⟩
  | .hbm, ⟨8, _⟩ => ⟨S_, .f32⟩
  | .hbm, ⟨9, _⟩ => ⟨S10000, .f32⟩
  | .hbm, ⟨10, _⟩ => ⟨S_, .f32⟩
  | .hbm, ⟨11, _⟩ => ⟨S10000, .f32⟩
  | .hbm, ⟨12, _⟩ => ⟨S10000, .f32⟩
  | .hbm, ⟨13, _⟩ => ⟨S10000, .f32⟩
  | .hbm, ⟨14, _⟩ => ⟨S10000x1, .f32⟩
  | .hbm, ⟨15, _⟩ => ⟨S10000x10000, .f32⟩
  | .hbm, ⟨16, _⟩ => ⟨S10000x10000, .f32⟩
  | .hbm, ⟨17, _⟩ => ⟨S1x10000, .f32⟩
  | .hbm, ⟨18, _⟩ => ⟨S10000x10000, .f32⟩
  | .hbm, ⟨19, _⟩ => ⟨S10000x10000, .f32⟩
  | .hbm, ⟨20, _⟩ => ⟨S10000x512, .f32⟩
  | .hbm, ⟨21, _⟩ => ⟨S10000x512, .f32⟩
  | .hbm, ⟨22, _⟩ => ⟨S1x512, .f32⟩
  | .hbm, ⟨23, _⟩ => ⟨S10000x512, .f32⟩
  | .hbm, ⟨24, _⟩ => ⟨S10000x512, .f32⟩
  | .hbm, ⟨25, _⟩ => ⟨S_, .f32⟩
  | .hbm, ⟨26, _⟩ => ⟨S10000x512, .f32⟩
  | .hbm, ⟨27, _⟩ => ⟨S10000x512, .f32⟩
  | .hbm, ⟨28, _⟩ => ⟨S10000x512, .f32⟩
  | .hbm, ⟨29, _⟩ => ⟨S10000x512, .f32⟩
  | .hbm, ⟨30, _⟩ => ⟨S1x512, .f32⟩
  | .hbm, ⟨31, _⟩ => ⟨S10000x512, .f32⟩
  | .hbm, ⟨32, _⟩ => ⟨S10000x512, .f32⟩
  | .hbm, ⟨33, _⟩ => ⟨S_, .f32⟩
  | .hbm, ⟨34, _⟩ => ⟨S10000x512, .f32⟩
  | .hbm, ⟨35, _⟩ => ⟨S10000x512, .f32⟩
  | .hbm, ⟨36, _⟩ => ⟨S10000x1, .f32⟩
  | .hbm, ⟨37, _⟩ => ⟨S1x1, .f32⟩
  | .hbm, ⟨38, _⟩ => ⟨S10000x1, .f32⟩
  | .hbm, ⟨39, _⟩ => ⟨S10000x1, .f32⟩
  | _, _ => ⟨S10000x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_cst : Ref sig .tc := ⟨.hbm, 8, rfl⟩
abbrev main_v0 : Ref sig .tc := ⟨.hbm, 9, rfl⟩
abbrev main_cst_0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_call0_cst : Ref sig .tc := ⟨.hbm, 25, rfl⟩
abbrev main_call0_v0 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_call1_cst : Ref sig .tc := ⟨.hbm, 33, rfl⟩
abbrev main_call1_v0 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩

abbrev nD : Nat := 1
abbrev τ : Topo := Topo.v7x

variable {F : FTy → Type} [FloatOps F]

class Facts₀ : Prop where
  reducesTo_S10000x10000_S10000_d1 : S10000x10000.ReducesTo [1] S10000
  h_S_ : 0 < S_.numel
  bcast_S_S10000 : S_.BroadcastsInDim S10000 (![] : Fin 0 → Fin S10000.rank)
  bcast_S10000_S10000x1_0 : S10000.BroadcastsInDim S10000x1 (![0] : Fin 1 → Fin S10000x1.rank)
  bcast_S10000x1_S10000x10000_0_1 : S10000x1.BroadcastsInDim S10000x10000 (![0, 1] : Fin 2 → Fin S10000x10000.rank)
  bcast_S10000_S1x10000_1 : S10000.BroadcastsInDim S1x10000 (![1] : Fin 1 → Fin S1x10000.rank)
  bcast_S1x10000_S10000x10000_0_1 : S1x10000.BroadcastsInDim S10000x10000 (![0, 1] : Fin 2 → Fin S10000x10000.rank)
  bcast_S512_S1x512_1 : S512.BroadcastsInDim S1x512 (![1] : Fin 1 → Fin S1x512.rank)
  bcast_S1x512_S10000x512_0_1 : S1x512.BroadcastsInDim S10000x512 (![0, 1] : Fin 2 → Fin S10000x512.rank)
  bcast_S_S10000x512 : S_.BroadcastsInDim S10000x512 (![] : Fin 0 → Fin S10000x512.rank)
  bcast_S1_S1x1_1 : S1.BroadcastsInDim S1x1 (![1] : Fin 1 → Fin S1x1.rank)
  bcast_S1x1_S10000x1_0_1 : S1x1.BroadcastsInDim S10000x1 (![0, 1] : Fin 2 → Fin S10000x1.rank)
  dot_S10000x512_S512x512_S10000x512_1_0_0_1_n_n_wf : DotDims.WF S10000x512 S512x512 S10000x512 [1] [0] [0] [1] [] []
  dot_S10000x10000_S10000x512_S10000x512_1_0_0_1_n_n_wf : DotDims.WF S10000x10000 S10000x512 S10000x512 [1] [0] [0] [1] [] []
  dot_S10000x512_S512x1_S10000x1_1_0_0_1_n_n_wf : DotDims.WF S10000x512 S512x1 S10000x1 [1] [0] [0] [1] [] []

variable [Facts₀]

def dot_S10000x512_S512x512_S10000x512_1_0_0_1_n_n : DotDims S10000x512 S512x512 S10000x512 where
  lhsContracting := [1]
  rhsContracting := [0]
  lhsNonContracting := [0]
  rhsNonContracting := [1]
  lhsBatch := []
  rhsBatch := []
  wf := dot_S10000x512_S512x512_S10000x512_1_0_0_1_n_n_wf
def dot_S10000x10000_S10000x512_S10000x512_1_0_0_1_n_n : DotDims S10000x10000 S10000x512 S10000x512 where
  lhsContracting := [1]
  rhsContracting := [0]
  lhsNonContracting := [0]
  rhsNonContracting := [1]
  lhsBatch := []
  rhsBatch := []
  wf := dot_S10000x10000_S10000x512_S10000x512_1_0_0_1_n_n_wf
def dot_S10000x512_S512x1_S10000x1_1_0_0_1_n_n : DotDims S10000x512 S512x1 S10000x1 where
  lhsContracting := [1]
  rhsContracting := [0]
  lhsNonContracting := [0]
  rhsNonContracting := [1]
  lhsBatch := []
  rhsBatch := []
  wf := dot_S10000x512_S512x1_S10000x1_1_0_0_1_n_n_wf

class Facts : Prop extends Facts₀ where

variable [Facts]
-- ==== Proof.Spec.lean ====
/-
  The mathematics of the two-layer graph convolution with a linear head, over the extended reals.

  For an adjacency matrix `a` (n × n), features `x` (n × d), weights `w1`, `w2` (d × d), biases `b1`, `b2` (length d),
  a head `wp` (d × 1) and its bias `bp` (length 1):

    deg r   = ∑ j, a r j                      s r = rsqrt (deg r + ε)
    An r j  = (a r j · s r) · s j             (the symmetrically normalised adjacency, in this association)
    H1      = relu (An · (x · w1) + b1)       H2 = relu (An · (H1 · w2) + b2)
    out     = H2 · wp + bp

  Every piece is ROW-LOCAL in the adjacency: row r of the result needs row r of `a` and of the column `s`, and the whole of
  everything else. The definitions below therefore take a row count `R` that is free: at `R` = the block height they say what
  one block of rows computes, at `R` = n what the whole array holds, and a block of the whole is the whole's definition at
  the block's rows.
-/
import Idealize.ShloMosaic.PureOps.Ideal
import Idealize.ShloMosaic.Lib.ValueIdx

noncomputable section

open Idealize.ShloMosaic Idealize.ShloMosaic.ValueIdx

namespace Cert.Gcn

/-- A two-axis array of extended reals. -/
abbrev Mat (R C : Nat) : Type := (⟨2, ![R, C]⟩ : Shape).Idx → EReal
/-- A one-axis array of extended reals. -/
abbrev Arr1 (N : Nat) : Type := (⟨1, ![N]⟩ : Shape).Idx → EReal

/-- The row coordinate of a two-axis index. -/
abbrev row {R C : Nat} (i : (⟨2, ![R, C]⟩ : Shape).Idx) : Fin R := i 0
/-- The column coordinate of a two-axis index. -/
abbrev col {R C : Nat} (i : (⟨2, ![R, C]⟩ : Shape).Idx) : Fin C := i 1

/-- The shift under the square root: the single-precision number nearest 1e-9. -/
abbrev eps : EReal := Ideal.ofBits .f32 0x3089705F#32

/-- The matrix product: entry (r, c) is the sum over k of x r k · y k c. -/
def mm {R K N : Nat} (x : Mat R K) (y : Mat K N) : Mat R N :=
  fun i => ∑ k : Fin K, x (ix2 (row i) k) * y (ix2 k (col i))

/-- The inverse square root of the shifted row sums, as a column: entry (r, 0) is rsqrt (∑ j, a r j + ε). -/
def scale {R K : Nat} (a : Mat R K) : Mat R 1 :=
  fun i => Ideal.rsqrt ((∑ j : Fin K, a (ix2 (row i) j)) + eps)

/-- The adjacency scaled by a column on the left and a row on the right: (a r j · sc r) · sr j. -/
def normed {R K : Nat} (a : Mat R K) (sc : Mat R 1) (sr : Mat 1 K) : Mat R K :=
  fun i => (a i * sc (ix2 (row i) 0)) * sr (ix2 0 (col i))

/-- One propagation step before its dense product: relu (an · v + b), the bias a row added to every row. -/
def hidden {R K N : Nat} (an : Mat R K) (v : Mat K N) (b : Mat 1 N) : Mat R N :=
  fun i => max (mm an v i + b (ix2 0 (col i))) 0

/-- One whole layer: propagate, add the bias, clamp below at zero, then the dense product with `w`. -/
def layer {R K N M : Nat} (a : Mat R K) (sc : Mat R 1) (sr : Mat 1 K) (v : Mat K N) (b : Mat 1 N) (w : Mat N M) : Mat R M :=
  mm (hidden (normed a sc sr) v b) w

/-- The last layer with the head's bias, a 1 × 1 array added to every entry. -/
def head {R K N M : Nat} (a : Mat R K) (sc : Mat R 1) (sr : Mat 1 K) (v : Mat K N) (b : Mat 1 N) (w : Mat N M) (bp : Mat 1 1) : Mat R M :=
  fun i => layer a sc sr v b w i + bp (ix2 0 0)

/-- A column read as a row: entry (0, j) of the result is entry (j, 0) of the column. -/
def asRow {K : Nat} (s : Mat K 1) : Mat 1 K := fun i => s (ix2 (col i) 0)

/-- A one-axis array read as a one-row matrix. -/
def rowOf {N : Nat} (b : Arr1 N) : Mat 1 N := fun i => b (ix1 (col i))

/-- THE RESULT, as one function of the eight argument arrays. -/
def result {n d : Nat} (x : Mat n d) (a : Mat n n) (w1 : Mat d d) (b1 : Arr1 d) (w2 : Mat d d) (b2 : Arr1 d) (wp : Mat d 1) (bp : Arr1 1) : Mat n 1 :=
  head a (scale a) (asRow (scale a)) (layer a (scale a) (asRow (scale a)) (mm x w1) (rowOf b1) w2) (rowOf b2) wp (rowOf bp)

/-! ## Row-locality: a block of rows of the whole is the definition at the block's rows -/

/-- Rows `o, o+1, …, o+R-1` of an array of `n` rows. -/
def rowsAt {n C : Nat} (R o : Nat) (h : o + R ≤ n) (a : Mat n C) : Mat R C :=
  fun i => a (ix2 ⟨o + (row i).val, by have := (row i).isLt; omega⟩ (col i))

theorem mm_rowsAt {n K N : Nat} (R o : Nat) (h : o + R ≤ n) (x : Mat n K) (y : Mat K N) :
    rowsAt R o h (mm x y) = mm (rowsAt R o h x) y := rfl

theorem scale_rowsAt {n K : Nat} (R o : Nat) (h : o + R ≤ n) (a : Mat n K) :
    rowsAt R o h (scale a) = scale (rowsAt R o h a) := rfl

theorem layer_rowsAt {n K N M : Nat} (R o : Nat) (h : o + R ≤ n) (a : Mat n K) (sc : Mat n 1) (sr : Mat 1 K) (v : Mat K N) (b : Mat 1 N) (w : Mat N M) :
    rowsAt R o h (layer a sc sr v b w) = layer (rowsAt R o h a) (rowsAt R o h sc) sr v b w := rfl

theorem head_rowsAt {n K N M : Nat} (R o : Nat) (h : o + R ≤ n) (a : Mat n K) (sc : Mat n 1) (sr : Mat 1 K) (v : Mat K N) (b : Mat 1 N) (w : Mat N M) (bp : Mat 1 1) :
    rowsAt R o h (head a sc sr v b w bp) = head (rowsAt R o h a) (rowsAt R o h sc) sr v b w bp := rfl

end Cert.Gcn

end
-- ==== Proof.KernelPay.lean ====
/-
  What each kernel body computes from the blocks it loads, at the exact values: the three stores' values as the row-local
  functions of the specification at the block height. The matrix unit's products are sums over the contracted coordinate;
  a change of float format is the identity; a column or a row spread over a block reads the column's or the row's entry.
-/
import proofs.«162718_g53249004536087_cont_9to1_m_742_17_alg».proof.Proof.Gen.KernelIdeal.Skeleton
import proofs.«162718_g53249004536087_cont_9to1_m_742_17_alg».proof.Proof.Spec
import Idealize.ShloMosaic.PureOps.Ideal.Laws
import Idealize.ShloMosaic.Lib.ValueIdx
import Idealize.ShloMosaic.Lib.ValueLayout
import Idealize.ShloMosaic.Lib.Pipeline.Value

noncomputable section

open Idealize.ShloMosaic Idealize.ShloMosaic.ValueIdx

namespace Cert.Gcn.Kernel

open Cert.KernelIdeal Cert.KernelIdeal.Gen

/-! ### A rows-by-columns contraction into a zero accumulator is the matrix product -/

/-- For the plain `R × K` by `K × N` contraction, the matrix unit's product into a zero accumulator is the matrix product:
    entry (r, c) is the sum over the contracted coordinate k of the left operand at (r, k) times the right at (k, c). -/
theorem plain_matmul (R K N : Nat) {φ₁ φ₂ : FTy} (x : FVec Ideal ⟨2, ![R, K]⟩ φ₁) (y : FVec Ideal ⟨2, ![K, N]⟩ φ₂) :
    matmul (DotDims.plain R K N) none x y (constant (F := Ideal) ⟨2, ![R, N]⟩ .f32 0x00000000#32) = Gcn.mm x y := by
  funext i
  simp only [matmul]
  rw [Ideal.matmul_constant_zero_apply, ← Equiv.sum_comp (contrEquiv1 (DotDims.plain R K N) K rfl rfl).symm]
  unfold Gcn.mm
  refine Finset.sum_congr rfl fun k _ => ?_
  have hk := contrEquiv1_symm_val (DotDims.plain R K N) K rfl rfl k
  have el : (DotDims.plain R K N).lhsIdx i ((contrEquiv1 (DotDims.plain R K N) K rfl rfl).symm k) = ix2 (Gcn.row i) k :=
    funext fun a => Fin.ext (by
      match a with
      | ⟨0, _⟩ => rfl
      | ⟨1, _⟩ => exact ((DotDims.plain R K N).lhsIdx_val_of_single rfl i _).trans hk)
  have er : (DotDims.plain R K N).rhsIdx i ((contrEquiv1 (DotDims.plain R K N) K rfl rfl).symm k) = ix2 k (Gcn.col i) :=
    funext fun a => Fin.ext (by
      match a with
      | ⟨0, _⟩ => exact ((DotDims.plain R K N).rhsIdx_val_of_single rfl i _).trans hk
      | ⟨1, _⟩ => rfl)
  rw [el, er]

/-- The three contractions the bodies use are plain ones. -/
theorem dotRows_plain : dot_S400x512_S512x512_S400x512_1_0_0_1_n_n = DotDims.plain 400 512 512 := rfl
theorem dotProp_plain : dot_S400x10000_S10000x512_S400x512_1_0_0_1_n_n = DotDims.plain 400 10000 512 := rfl
theorem dotHead_plain : dot_S400x512_S512x1_S400x1_1_0_0_1_n_n = DotDims.plain 400 512 1 := rfl

/-! ### Layout operations at an index -/

section Layout
variable {α : Type}

/-- A column `[a, 1]` spread over `[a, b]` reads, at (p, c), the column's entry at row p. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- A vector `[a]` recast as a column `[a, 1]` reads, at (p, c), the vector's entry p. -/
theorem shapeCast_a_a1_apply {a : ℕ} (v : (⟨1, ![a]⟩ : Shape).Idx → α) (h : (⟨1, ![a]⟩ : Shape).ShapeCasts ⟨2, ![a, 1]⟩)
    (p : Fin a) (c : Fin 1) : shapeCast ⟨2, ![a, 1]⟩ v h (ix2 p c) = v (ix1 p) := by
  refine shapeCast_apply v h (ix2 p c) (ix1 p) ?_
  rw [Shape.rowMajor_val_one, Shape.rowMajor_val_two]
  show p.val = p.val * 1 + c.val
  have := c.isLt
  omega

end Layout

/-- At the exact values a narrowing of the float format changes nothing. -/
theorem truncf_id {s : Shape} {φ ψ : FTy} (a : FVec Ideal s φ) (h : ψ.bits < φ.bits) : (truncf ψ a h : FVec Ideal s ψ) = a := rfl

/-! ### The three bodies' stores -/

/-- A block's lane sum at row p is the sum of that row's entries. -/
theorem rowsum_apply (x0 : FVec Ideal S400x10000 .f32) (h : S400x10000.Reduces [1] S400)
    (hacc : (0x00000000#32 : BitVec 32) = 0x00000000#32) (p : Fin 400) :
    multiReduction (F := Ideal) .add [1] S400 x0 0x00000000#32 h (.inl rfl) hacc (ix1 p) = ∑ j : Fin 10000, x0 (ix2 p j) :=
  (Ideal.multiReduction_add_single x0 0x00000000#32 h (.inl rfl) hacc (ix1 p)).trans
    (Finset.sum_congr rfl fun k _ => congrArg x0 (funext fun a => Fin.ext (by match a with | ⟨0, _⟩ => rfl | ⟨1, _⟩ => rfl)))

/-- The first pass's column: the inverse square root of each row's shifted sum. -/
theorem scale_store (x0 : Vec Ideal S400x10000 .f32) : k0_pay1 (F := Ideal) x0 = Gcn.scale x0 := by
  funext i
  obtain ⟨p, c, rfl⟩ : ∃ (p : Fin 400) (c : Fin 1), i = ix2 p c := ⟨i 0, i 1, eq_ix2 i⟩
  unfold k0_pay1
  rw [shapeCast_a_a1_apply]
  show Ideal.rsqrt (_ + Gcn.eps) = Ideal.rsqrt ((∑ j : Fin 10000, x0 (ix2 p j)) + Gcn.eps)
  rw [rowsum_apply]

/-- The first pass's dense product: the block of features times the first weight matrix. -/
theorem dense_store (x7 : Vec Ideal S400x512 .f32) (x8 : Vec Ideal S512x512 .f32) : k0_pay2 (F := Ideal) x7 x8 = Gcn.mm x7 x8 := by
  unfold k0_pay2
  simp only [truncf_id, dotRows_plain]
  exact plain_matmul 400 512 512 x7 x8

/-- The adjacency block scaled by its rows' column entries and by the row of all scales, as both later passes form it. -/
theorem normed_block (x0 : FVec Ideal S400x10000 .f32) (x1 : FVec Ideal S400x1 .f32) (x5 : FVec Ideal S1x10000 .f32) :
    mulf (F := Ideal) (φ := .f32) (mulf (F := Ideal) (φ := .f32) x0 (broadcastTo S400x10000 x1 broadcasts_S400x1_S400x10000)) (broadcastTo S400x10000 x5 broadcasts_S1x10000_S400x10000)
      = Gcn.normed x0 x1 x5 := by
  funext i
  obtain ⟨p, q, rfl⟩ : ∃ (p : Fin 400) (q : Fin 10000), i = ix2 p q := ⟨i 0, i 1, eq_ix2 i⟩
  show (x0 (ix2 p q) * broadcastTo S400x10000 x1 broadcasts_S400x1_S400x10000 (ix2 p q)) * broadcastTo S400x10000 x5 broadcasts_S1x10000_S400x10000 (ix2 p q) = _
  rw [broadcastTo_a1_ab_apply, broadcastTo_1b_ab_apply]
  rfl

/-- Propagation, bias and clamp on a block: the specification's hidden activations at the block height. -/
theorem hidden_block (an : Gcn.Mat 400 10000) (v : Gcn.Mat 10000 512) (b : FVec Ideal S1x512 .f32) :
    maximumf (F := Ideal) (φ := .f32) (addf (F := Ideal) (φ := .f32) (Gcn.mm an v) (broadcastTo S400x512 b broadcasts_S1x512_S400x512))
        (broadcast S400x512 (Scalar.ofBits (F := Ideal) .f32 0x00000000#32))
      = Gcn.hidden an v b := by
  funext i
  obtain ⟨p, q, rfl⟩ : ∃ (p : Fin 400) (q : Fin 512), i = ix2 p q := ⟨i 0, i 1, eq_ix2 i⟩
  show max (Gcn.mm an v (ix2 p q) + broadcastTo S400x512 b broadcasts_S1x512_S400x512 (ix2 p q)) (Ideal.ofBits .f32 0x00000000#32) = _
  rw [broadcastTo_1b_ab_apply, Ideal.ofBits_zero_f32]
  rfl

/-- The second pass's store: one whole layer on the block's rows. -/
theorem layer_store (x0 : Vec Ideal S400x10000 .f32) (x1 : Vec Ideal S400x1 .f32) (x5 : Vec Ideal S1x10000 .f32)
    (x10 : Vec Ideal S10000x512 .bf16) (x13 : Vec Ideal S1x512 .f32) (x19 : Vec Ideal S512x512 .bf16) :
    k1_pay1 (F := Ideal) x0 x1 x5 x10 x13 x19 = Gcn.layer x0 x1 x5 x10 x13 x19 := by
  unfold k1_pay1
  simp only [shapeCast_self, truncf_id, dotRows_plain, dotProp_plain]
  rw [normed_block, plain_matmul 400 10000 512, hidden_block, plain_matmul 400 512 512]
  rfl

/-- The third pass's store: the last layer on the block's rows, the head's bias added to every entry. -/
theorem head_store (x0 : Vec Ideal S400x10000 .f32) (x1 : Vec Ideal S400x1 .f32) (x5 : Vec Ideal S1x10000 .f32)
    (x10 : Vec Ideal S10000x512 .bf16) (x13 : Vec Ideal S1x512 .f32) (x19 : Vec Ideal S512x1 .f32) (x23 : Vec Ideal S1x1 .f32) :
    k2_pay1 (F := Ideal) x0 x1 x5 x10 x13 x19 x23 = Gcn.head x0 x1 x5 x10 x13 x19 x23 := by
  unfold k2_pay1
  simp only [shapeCast_self, truncf_id, dotHead_plain, dotProp_plain]
  rw [normed_block, plain_matmul 400 10000 512, hidden_block, plain_matmul 400 512 1]
  funext i
  obtain ⟨p, c, rfl⟩ : ∃ (p : Fin 400) (c : Fin 1), i = ix2 p c := ⟨i 0, i 1, eq_ix2 i⟩
  show Gcn.mm _ x19 (ix2 p c) + broadcastTo S400x1 x23 broadcasts_S1x1_S400x1 (ix2 p c) = _
  rw [broadcastTo_1b_ab_apply]
  obtain rfl : c = 0 := Subsingleton.elim _ _
  rfl

end Cert.Gcn.Kernel

end
-- ==== Proof.Pass1.lean ====
/-
  The first pass as a whole: entered with the adjacency, the features and the first weight matrix in its three input arrays,
  it leaves the column of scales in its first output array and the features' dense product in its second. Each grid point
  works on 400 rows: its adjacency block and its feature block are rows 400 t … 400 t + 399 of their arrays, the weight matrix
  is read whole, and what it writes back is rows 400 t … 400 t + 399 of each result, because both are row-local. The 25
  blocks tile the 10000 rows.
-/
import proofs.«162718_g53249004536087_cont_9to1_m_742_17_alg».proof.Proof.Gen.KernelIdeal.Frame
import proofs.«162718_g53249004536087_cont_9to1_m_742_17_alg».proof.Proof.KernelPay
import Idealize.ShloMosaic.Lib.Pipeline.Value

set_option maxRecDepth 16384

noncomputable section

open Idealize.ShloMosaic Idealize.ShloMosaic.TcCoe Idealize.SL.Sem Idealize.ShloMosaic.ValueIdx
open Idealize.ShloMosaic.Pipeline (Dat)

namespace Cert.Gcn.Pass1

open Cert.KernelIdeal Cert.KernelIdeal.Gen

variable (V : (c : Dev nD) → (b : Ref sig .tc) → Buf (Elt Ideal) ((c : Thread nD τ).loc b))

theorem hz : (![0, 0] : Fin 2 → Nat) = fun _ => 0 := funext fun a => by fin_cases a <;> rfl

/-- Block `t` of 400 rows lies inside the 10000 rows. -/
theorem rows_le (t : Fin cfg0.N) : 400 * t.val + 400 ≤ 10000 := by
  have h : t.val < 25 := lt_of_lt_of_eq t.isLt N_0
  omega

/-- The printed index maps over the grid: the adjacency, the features and both outputs move with the point along the rows;
    the weight matrix stays at block (0, 0). -/
theorem index_maps : ∀ t : Fin cfg0.N,
    win0_0.index t (0 : Fin 2) = t.val ∧ win0_0.index t (1 : Fin 2) = 0
    ∧ win0_1.index t (0 : Fin 2) = t.val ∧ win0_1.index t (1 : Fin 2) = 0
    ∧ win0_2.index t (0 : Fin 2) = 0 ∧ win0_2.index t (1 : Fin 2) = 0
    ∧ win0_3.index t (0 : Fin 2) = t.val ∧ win0_3.index t (1 : Fin 2) = 0
    ∧ win0_4.index t (0 : Fin 2) = t.val ∧ win0_4.index t (1 : Fin 2) = 0 :=
  (by decide +kernel : ∀ t : Fin grid0.N, _)

/-- The adjacency's block at point `t` is its rows from 400 t. -/
theorem adj_block (c : Dev nD) (t : Fin cfg0.N) :
    (iblk0 V c 0 t : Vec Ideal S400x10000 .f32) = Gcn.rowsAt 400 (400 * t.val) (rows_le t) (V c main_arg1) := by
  obtain ⟨e0, e1, -⟩ := index_maps t
  funext j
  unfold iblk0
  rw [View.read_apply]
  show V c main_arg1 _ = V c main_arg1 _
  congr 1
  funext a
  apply Fin.ext
  match a with
  | ⟨0, _⟩ => show win0_0.index t (0 : Fin 2) * 400 + 1 * (j 0).val = 400 * t.val + (j 0).val; rw [e0]; omega
  | ⟨1, _⟩ => show win0_0.index t (1 : Fin 2) * 10000 + 1 * (j 1).val = (j 1).val; rw [e1]; omega

/-- The features' block at point `t` is their rows from 400 t. -/
theorem feat_block (c : Dev nD) (t : Fin cfg0.N) :
    (iblk0 V c 1 t : Vec Ideal S400x512 .f32) = Gcn.rowsAt 400 (400 * t.val) (rows_le t) (V c main_arg0) := by
  obtain ⟨-, -, e0, e1, -⟩ := index_maps t
  funext j
  unfold iblk0
  rw [View.read_apply]
  show V c main_arg0 _ = V c main_arg0 _
  congr 1
  funext a
  apply Fin.ext
  match a with
  | ⟨0, _⟩ => show win0_1.index t (0 : Fin 2) * 400 + 1 * (j 0).val = 400 * t.val + (j 0).val; rw [e0]; omega
  | ⟨1, _⟩ => show win0_1.index t (1 : Fin 2) * 512 + 1 * (j 1).val = (j 1).val; rw [e1]; omega

/-- The weight matrix is read whole at every point. -/
theorem weight_block (c : Dev nD) (t : Fin cfg0.N) : (iblk0 V c 2 t : Vec Ideal S512x512 .f32) = V c main_arg2 := by
  obtain ⟨-, -, -, -, e0, e1, -⟩ := index_maps t
  funext j
  unfold iblk0
  rw [View.read_apply]
  show V c main_arg2 _ = V c main_arg2 _
  congr 1
  funext a
  apply Fin.ext
  match a with
  | ⟨0, _⟩ => show win0_2.index t (0 : Fin 2) * 512 + 1 * (j 0).val = (j 0).val; rw [e0]; omega
  | ⟨1, _⟩ => show win0_2.index t (1 : Fin 2) * 512 + 1 * (j 1).val = (j 1).val; rw [e1]; omega

/-! ## The column of scales -/

/-- What the first output array holds after the pass. -/
abbrev scales (c : Dev nD) : Gcn.Mat 10000 1 := Gcn.scale (V c main_arg1)

/-- WHAT POINT `t` WRITES BACK to the column is block `t` of the scales of the whole adjacency: a row's scale needs that row only. -/
theorem scales_flushed (c : Dev nD) (t : Fin cfg0.N) :
    (dat0 V c).flushed 3 t = ((cfg0.win 3).blk t).view.read (Elt Ideal) (scales V c) := by
  show (cfg0.win 3).cut (grid0.coords t) ((dat0 V c).after 3 t) = _
  rw [after0_3]
  unfold out0_3
  rw [View.canon_unit_zero hz]
  simp only [View.ld_unit_zero (S := S400x10000) hz]
  rw [Kernel.scale_store, adj_block V c t, ← Gcn.scale_rowsAt 400 (400 * t.val) (rows_le t)]
  obtain ⟨-, -, -, -, -, -, e0, e1, -⟩ := index_maps t
  funext j
  rw [View.read_apply]
  show scales V c _ = scales V c _
  congr 1
  funext a
  apply Fin.ext
  match a with
  | ⟨0, _⟩ => show 400 * t.val + (j 0).val = win0_3.index t (0 : Fin 2) * 400 + 1 * (j 0).val; rw [e0]; omega
  | ⟨1, _⟩ => show (j 1).val = win0_3.index t (1 : Fin 2) * 1 + 1 * (j 1).val; rw [e1]; omega

theorem scales_mem_blk (t : Fin cfg0.N) (i : S10000x1.Idx) :
    i ∈ ((cfg0.win 3).blk t).view.set ↔ ∀ a : Fin 2, win0_3.index t a * S400x1.size a ≤ (i a).val ∧ (i a).val < win0_3.index t a * S400x1.size a + S400x1.size a := by
  show i ∈ ((View.whole main_v3_0).slice (win0_3.rect t)).set ↔ _
  rw [View.set_slice_whole, Rect.mem_set_unit]
  exact Iff.rfl

/-- Row r of the column is written by point r / 400. -/
theorem scales_cover (i : S10000x1.Idx) : ∃ t : Fin cfg0.N, (cfg0.win 3).flush t = true ∧ i ∈ ((cfg0.win 3).blk t).view.set := by
  have hi0 : (i 0).val < 10000 := (i 0).isLt
  have hi1 : (i 1).val < 1 := (i 1).isLt
  refine ⟨⟨(i 0).val / 400, by have hN : cfg0.N = 25 := N_0; omega⟩, flush0_3 _, ?_⟩
  rw [scales_mem_blk]
  obtain ⟨-, -, -, -, -, -, e0, e1, -⟩ := index_maps ⟨(i 0).val / 400, by have hN : cfg0.N = 25 := N_0; omega⟩
  intro a
  match a with
  | ⟨0, _⟩ =>
    show win0_3.index _ (0 : Fin 2) * 400 ≤ (i 0).val ∧ (i 0).val < win0_3.index _ (0 : Fin 2) * 400 + 400
    rw [e0]
    show (i 0).val / 400 * 400 ≤ (i 0).val ∧ (i 0).val < (i 0).val / 400 * 400 + 400
    omega
  | ⟨1, _⟩ =>
    show win0_3.index _ (1 : Fin 2) * 1 ≤ (i 1).val ∧ (i 1).val < win0_3.index _ (1 : Fin 2) * 1 + 1
    rw [e1]
    omega

/-- THE COLUMN after the pass: the scales of the adjacency the pass is entered with. -/
theorem scales_array (c : Dev nD) : (dat0 V c).arrAt 3 cfg0.N = scales V c :=
  (dat0 V c).arrAt_eq_of_cover 3 (scales V c) (fun t _ => scales_flushed V c t) scales_cover

/-! ## The dense product -/

/-- What the second output array holds after the pass. -/
abbrev dense (c : Dev nD) : Gcn.Mat 10000 512 := Gcn.mm (V c main_arg0) (V c main_arg2)

/-- WHAT POINT `t` WRITES BACK to the product is block `t` of the whole product: a row of it needs that row of the features only. -/
theorem dense_flushed (c : Dev nD) (t : Fin cfg0.N) :
    (dat0 V c).flushed 4 t = ((cfg0.win 4).blk t).view.read (Elt Ideal) (dense V c) := by
  show (cfg0.win 4).cut (grid0.coords t) ((dat0 V c).after 4 t) = _
  rw [after0_4]
  unfold out0_4
  rw [View.canon_unit_zero hz]
  simp only [View.ld_unit_zero (S := S400x512) hz, View.ld_unit_zero (S := S512x512) hz]
  rw [Kernel.dense_store, feat_block V c t, weight_block V c t, ← Gcn.mm_rowsAt 400 (400 * t.val) (rows_le t)]
  obtain ⟨-, -, -, -, -, -, -, -, e0, e1⟩ := index_maps t
  funext j
  rw [View.read_apply]
  show dense V c _ = dense V c _
  congr 1
  funext a
  apply Fin.ext
  match a with
  | ⟨0, _⟩ => show 400 * t.val + (j 0).val = win0_4.index t (0 : Fin 2) * 400 + 1 * (j 0).val; rw [e0]; omega
  | ⟨1, _⟩ => show (j 1).val = win0_4.index t (1 : Fin 2) * 512 + 1 * (j 1).val; rw [e1]; omega

theorem dense_mem_blk (t : Fin cfg0.N) (i : S10000x512.Idx) :
    i ∈ ((cfg0.win 4).blk t).view.set ↔ ∀ a : Fin 2, win0_4.index t a * S400x512.size a ≤ (i a).val ∧ (i a).val < win0_4.index t a * S400x512.size a + S400x512.size a := by
  show i ∈ ((View.whole main_v3_1).slice (win0_4.rect t)).set ↔ _
  rw [View.set_slice_whole, Rect.mem_set_unit]
  exact Iff.rfl

/-- Row r of the product is written by point r / 400. -/
theorem dense_cover (i : S10000x512.Idx) : ∃ t : Fin cfg0.N, (cfg0.win 4).flush t = true ∧ i ∈ ((cfg0.win 4).blk t).view.set := by
  have hi0 : (i 0).val < 10000 := (i 0).isLt
  have hi1 : (i 1).val < 512 := (i 1).isLt
  refine ⟨⟨(i 0).val / 400, by have hN : cfg0.N = 25 := N_0; omega⟩, flush0_4 _, ?_⟩
  rw [dense_mem_blk]
  obtain ⟨-, -, -, -, -, -, -, -, e0, e1⟩ := index_maps ⟨(i 0).val / 400, by have hN : cfg0.N = 25 := N_0; omega⟩
  intro a
  match a with
  | ⟨0, _⟩ =>
    show win0_4.index _ (0 : Fin 2) * 400 ≤ (i 0).val ∧ (i 0).val < win0_4.index _ (0 : Fin 2) * 400 + 400
    rw [e0]
    show (i 0).val / 400 * 400 ≤ (i 0).val ∧ (i 0).val < (i 0).val / 400 * 400 + 400
    omega
  | ⟨1, _⟩ =>
    show win0_4.index _ (1 : Fin 2) * 512 ≤ (i 1).val ∧ (i 1).val < win0_4.index _ (1 : Fin 2) * 512 + 512
    rw [e1]
    omega

/-- THE PRODUCT after the pass: the features times the first weight matrix, as the pass is entered with them. -/
theorem dense_array (c : Dev nD) : (dat0 V c).arrAt 4 cfg0.N = dense V c :=
  (dat0 V c).arrAt_eq_of_cover 4 (dense V c) (fun t _ => dense_flushed V c t) dense_cover

end Cert.Gcn.Pass1

end
-- ==== Proof.Pass2.lean ====
/-
  The second pass as a whole: entered with the adjacency, the column of scales, the same scales as a row, the first dense
  product, the first bias as a row and the second weight matrix in its six input arrays, it leaves in its output array one
  whole layer of them. Each grid point works on 400 rows: its adjacency block and its column block are rows 400 t … 400 t + 399
  of their arrays, every other input is read whole, and what it writes back is rows 400 t … 400 t + 399 of the layer, because
  the layer is row-local. The 25 blocks tile the 10000 rows.
-/
import proofs.«162718_g53249004536087_cont_9to1_m_742_17_alg».proof.Proof.Gen.KernelIdeal.Frame
import proofs.«162718_g53249004536087_cont_9to1_m_742_17_alg».proof.Proof.KernelPay
import Idealize.ShloMosaic.Lib.Pipeline.Value

set_option maxRecDepth 16384

noncomputable section

open Idealize.ShloMosaic Idealize.ShloMosaic.TcCoe Idealize.SL.Sem Idealize.ShloMosaic.ValueIdx
open Idealize.ShloMosaic.Pipeline (Dat)

namespace Cert.Gcn.Pass2

open Cert.KernelIdeal Cert.KernelIdeal.Gen

variable (V : (c : Dev nD) → (b : Ref sig .tc) → Buf (Elt Ideal) ((c : Thread nD τ).loc b))

theorem hz : (![0, 0] : Fin 2 → Nat) = fun _ => 0 := funext fun a => by fin_cases a <;> rfl

/-- Block `t` of 400 rows lies inside the 10000 rows. -/
theorem rows_le (t : Fin cfg1.N) : 400 * t.val + 400 ≤ 10000 := by
  have h : t.val < 25 := lt_of_lt_of_eq t.isLt N_1
  omega

/-- The printed index maps over the grid: the adjacency, the column and the output move with the point along the rows;
    every other window stays at block (0, 0). -/
theorem index_maps : ∀ t : Fin cfg1.N,
    win1_0.index t (0 : Fin 2) = t.val ∧ win1_0.index t (1 : Fin 2) = 0
    ∧ win1_1.index t (0 : Fin 2) = t.val ∧ win1_1.index t (1 : Fin 2) = 0
    ∧ win1_2.index t (0 : Fin 2) = 0 ∧ win1_2.index t (1 : Fin 2) = 0
    ∧ win1_3.index t (0 : Fin 2) = 0 ∧ win1_3.index t (1 : Fin 2) = 0
    ∧ win1_4.index t (0 : Fin 2) = 0 ∧ win1_4.index t (1 : Fin 2) = 0
    ∧ win1_5.index t (0 : Fin 2) = 0 ∧ win1_5.index t (1 : Fin 2) = 0
    ∧ win1_6.index t (0 : Fin 2) = t.val ∧ win1_6.index t (1 : Fin 2) = 0 :=
  (by decide +kernel : ∀ t : Fin grid1.N, _)

/-- The adjacency's block at point `t` is its rows from 400 t. -/
theorem adj_block (c : Dev nD) (t : Fin cfg1.N) :
    (iblk1 V c 0 t : Vec Ideal S400x10000 .f32) = Gcn.rowsAt 400 (400 * t.val) (rows_le t) (V c main_arg1) := by
  obtain ⟨e0, e1, -⟩ := index_maps t
  funext j
  unfold iblk1
  rw [View.read_apply]
  show V c main_arg1 _ = V c main_arg1 _
  congr 1
  funext a
  apply Fin.ext
  match a with
  | ⟨0, _⟩ => show win1_0.index t (0 : Fin 2) * 400 + 1 * (j 0).val = 400 * t.val + (j 0).val; rw [e0]; omega
  | ⟨1, _⟩ => show win1_0.index t (1 : Fin 2) * 10000 + 1 * (j 1).val = (j 1).val; rw [e1]; omega

/-- The column's block at point `t` is its rows from 400 t. -/
theorem col_block (c : Dev nD) (t : Fin cfg1.N) :
    (iblk1 V c 1 t : Vec Ideal S400x1 .f32) = Gcn.rowsAt 400 (400 * t.val) (rows_le t) (V c main_v3_0) := by
  obtain ⟨-, -, e0, e1, -⟩ := index_maps t
  funext j
  unfold iblk1
  rw [View.read_apply]
  show V c main_v3_0 _ = V c main_v3_0 _
  congr 1
  funext a
  apply Fin.ext
  match a with
  | ⟨0, _⟩ => show win1_1.index t (0 : Fin 2) * 400 + 1 * (j 0).val = 400 * t.val + (j 0).val; rw [e0]; omega
  | ⟨1, _⟩ => show win1_1.index t (1 : Fin 2) * 1 + 1 * (j 1).val = (j 1).val; rw [e1]; omega

/-- The row of scales is read whole at every point. -/
theorem row_block (c : Dev nD) (t : Fin cfg1.N) : (iblk1 V c 2 t : Vec Ideal S1x10000 .f32) = V c main_v4 := by
  obtain ⟨-, -, -, -, e0, e1, -⟩ := index_maps t
  funext j
  unfold iblk1
  rw [View.read_apply]
  show V c main_v4 _ = V c main_v4 _
  congr 1
  funext a
  apply Fin.ext
  match a with
  | ⟨0, _⟩ => show win1_2.index t (0 : Fin 2) * 1 + 1 * (j 0).val = (j 0).val; rw [e0]; omega
  | ⟨1, _⟩ => show win1_2.index t (1 : Fin 2) * 10000 + 1 * (j 1).val = (j 1).val; rw [e1]; omega

/-- The first dense product is read whole at every point. -/
theorem dense_block (c : Dev nD) (t : Fin cfg1.N) : (iblk1 V c 3 t : Vec Ideal S10000x512 .bf16) = V c main_v3_1 := by
  obtain ⟨-, -, -, -, -, -, e0, e1, -⟩ := index_maps t
  funext j
  unfold iblk1
  rw [View.read_apply]
  show V c main_v3_1 _ = V c main_v3_1 _
  congr 1
  funext a
  apply Fin.ext
  match a with
  | ⟨0, _⟩ => show win1_3.index t (0 : Fin 2) * 10000 + 1 * (j 0).val = (j 0).val; rw [e0]; omega
  | ⟨1, _⟩ => show win1_3.index t (1 : Fin 2) * 512 + 1 * (j 1).val = (j 1).val; rw [e1]; omega

/-- The bias row is read whole at every point. -/
theorem bias_block (c : Dev nD) (t : Fin cfg1.N) : (iblk1 V c 4 t : Vec Ideal S1x512 .f32) = V c main_v0 := by
  obtain ⟨-, -, -, -, -, -, -, -, e0, e1, -⟩ := index_maps t
  funext j
  unfold iblk1
  rw [View.read_apply]
  show V c main_v0 _ = V c main_v0 _
  congr 1
  funext a
  apply Fin.ext
  match a with
  | ⟨0, _⟩ => show win1_4.index t (0 : Fin 2) * 1 + 1 * (j 0).val = (j 0).val; rw [e0]; omega
  | ⟨1, _⟩ => show win1_4.index t (1 : Fin 2) * 512 + 1 * (j 1).val = (j 1).val; rw [e1]; omega

/-- The weight matrix is read whole at every point. -/
theorem weight_block (c : Dev nD) (t : Fin cfg1.N) : (iblk1 V c 5 t : Vec Ideal S512x512 .bf16) = V c main_v5 := by
  obtain ⟨-, -, -, -, -, -, -, -, -, -, e0, e1, -⟩ := index_maps t
  funext j
  unfold iblk1
  rw [View.read_apply]
  show V c main_v5 _ = V c main_v5 _
  congr 1
  funext a
  apply Fin.ext
  match a with
  | ⟨0, _⟩ => show win1_5.index t (0 : Fin 2) * 512 + 1 * (j 0).val = (j 0).val; rw [e0]; omega
  | ⟨1, _⟩ => show win1_5.index t (1 : Fin 2) * 512 + 1 * (j 1).val = (j 1).val; rw [e1]; omega

/-- What the output array holds after the pass, as a function of the six arrays the pass is entered with. -/
abbrev out (c : Dev nD) : Gcn.Mat 10000 512 :=
  Gcn.layer (V c main_arg1) (V c main_v3_0) (V c main_v4) (V c main_v3_1) (V c main_v0) (V c main_v5)

/-- WHAT POINT `t` WRITES BACK is block `t` of the layer of the entry arrays: the body computes the layer of its blocks,
    two of which are rows of their arrays, and the layer's rows depend on those rows only. -/
theorem flushed_eq (c : Dev nD) (t : Fin cfg1.N) :
    (dat1 V c).flushed 6 t = ((cfg1.win 6).blk t).view.read (Elt Ideal) (out V c) := by
  show (cfg1.win 6).cut (grid1.coords t) ((dat1 V c).after 6 t) = _
  rw [after1_6]
  unfold out1_6
  rw [View.canon_unit_zero hz]
  simp only [View.ld_unit_zero (S := S400x10000) hz, View.ld_unit_zero (S := S400x1) hz, View.ld_unit_zero (S := S1x10000) hz,
    View.ld_unit_zero (S := S10000x512) hz, View.ld_unit_zero (S := S1x512) hz, View.ld_unit_zero (S := S512x512) hz]
  rw [Kernel.layer_store, adj_block V c t, col_block V c t, row_block V c t, dense_block V c t, bias_block V c t, weight_block V c t,
    ← Gcn.layer_rowsAt 400 (400 * t.val) (rows_le t)]
  obtain ⟨-, -, -, -, -, -, -, -, -, -, -, -, e0, e1⟩ := index_maps t
  funext j
  rw [View.read_apply]
  show out V c _ = out V c _
  congr 1
  funext a
  apply Fin.ext
  match a with
  | ⟨0, _⟩ => show 400 * t.val + (j 0).val = win1_6.index t (0 : Fin 2) * 400 + 1 * (j 0).val; rw [e0]; omega
  | ⟨1, _⟩ => show (j 1).val = win1_6.index t (1 : Fin 2) * 512 + 1 * (j 1).val; rw [e1]; omega

/-- An index of the output array is in point `t`'s block iff each coordinate is in the block's range on its axis. -/
theorem mem_blk (t : Fin cfg1.N) (i : S10000x512.Idx) :
    i ∈ ((cfg1.win 6).blk t).view.set ↔ ∀ a : Fin 2, win1_6.index t a * S400x512.size a ≤ (i a).val ∧ (i a).val < win1_6.index t a * S400x512.size a + S400x512.size a := by
  show i ∈ ((View.whole main_v6).slice (win1_6.rect t)).set ↔ _
  rw [View.set_slice_whole, Rect.mem_set_unit]
  exact Iff.rfl

/-- Row r is written by point r / 400. -/
theorem cover (i : S10000x512.Idx) : ∃ t : Fin cfg1.N, (cfg1.win 6).flush t = true ∧ i ∈ ((cfg1.win 6).blk t).view.set := by
  have hi0 : (i 0).val < 10000 := (i 0).isLt
  have hi1 : (i 1).val < 512 := (i 1).isLt
  refine ⟨⟨(i 0).val / 400, by have hN : cfg1.N = 25 := N_1; omega⟩, flush1_6 _, ?_⟩
  rw [mem_blk]
  obtain ⟨-, -, -, -, -, -, -, -, -, -, -, -, e0, e1⟩ := index_maps ⟨(i 0).val / 400, by have hN : cfg1.N = 25 := N_1; omega⟩
  intro a
  match a with
  | ⟨0, _⟩ =>
    show win1_6.index _ (0 : Fin 2) * 400 ≤ (i 0).val ∧ (i 0).val < win1_6.index _ (0 : Fin 2) * 400 + 400
    rw [e0]
    show (i 0).val / 400 * 400 ≤ (i 0).val ∧ (i 0).val < (i 0).val / 400 * 400 + 400
    omega
  | ⟨1, _⟩ =>
    show win1_6.index _ (1 : Fin 2) * 512 ≤ (i 1).val ∧ (i 1).val < win1_6.index _ (1 : Fin 2) * 512 + 512
    rw [e1]
    omega

/-- THE OUTPUT ARRAY after the pass is one whole layer of the arrays the pass is entered with. -/
theorem array_eq (c : Dev nD) : (dat1 V c).arrAt 6 cfg1.N = out V c :=
  (dat1 V c).arrAt_eq_of_cover 6 (out V c) (fun t _ => flushed_eq V c t) cover

end Cert.Gcn.Pass2

end
-- ==== Proof.Pass3.lean ====
/-
  The third pass as a whole: entered with the adjacency, the column of scales, the same scales as a row, the second dense
  product, the second bias as a row, the head's weights and the head's bias in its seven input arrays, it leaves in its
  output array the last layer of them with the head's bias added. Each grid point works on 400 rows: its adjacency block and
  its column block are rows 400 t … 400 t + 399 of their arrays, every other input is read whole, and what it writes back is
  rows 400 t … 400 t + 399 of the result, because the result is row-local. The 25 blocks tile the 10000 rows.
-/
import proofs.«162718_g53249004536087_cont_9to1_m_742_17_alg».proof.Proof.Gen.KernelIdeal.Frame
import proofs.«162718_g53249004536087_cont_9to1_m_742_17_alg».proof.Proof.KernelPay
import Idealize.ShloMosaic.Lib.Pipeline.Value

set_option maxRecDepth 16384

noncomputable section

open Idealize.ShloMosaic Idealize.ShloMosaic.TcCoe Idealize.SL.Sem Idealize.ShloMosaic.ValueIdx
open Idealize.ShloMosaic.Pipeline (Dat)

namespace Cert.Gcn.Pass3

open Cert.KernelIdeal Cert.KernelIdeal.Gen

variable (V : (c : Dev nD) → (b : Ref sig .tc) → Buf (Elt Ideal) ((c : Thread nD τ).loc b))

theorem hz : (![0, 0] : Fin 2 → Nat) = fun _ => 0 := funext fun a => by fin_cases a <;> rfl

/-- Block `t` of 400 rows lies inside the 10000 rows. -/
theorem rows_le (t : Fin cfg2.N) : 400 * t.val + 400 ≤ 10000 := by
  have h : t.val < 25 := lt_of_lt_of_eq t.isLt N_2
  omega

/-- The printed index maps over the grid: the adjacency, the column and the output move with the point along the rows;
    every other window stays at block (0, 0). -/
theorem index_maps : ∀ t : Fin cfg2.N,
    win2_0.index t (0 : Fin 2) = t.val ∧ win2_0.index t (1 : Fin 2) = 0
    ∧ win2_1.index t (0 : Fin 2) = t.val ∧ win2_1.index t (1 : Fin 2) = 0
    ∧ win2_2.index t (0 : Fin 2) = 0 ∧ win2_2.index t (1 : Fin 2) = 0
    ∧ win2_3.index t (0 : Fin 2) = 0 ∧ win2_3.index t (1 : Fin 2) = 0
    ∧ win2_4.index t (0 : Fin 2) = 0 ∧ win2_4.index t (1 : Fin 2) = 0
    ∧ win2_5.index t (0 : Fin 2) = 0 ∧ win2_5.index t (1 : Fin 2) = 0
    ∧ win2_6.index t (0 : Fin 2) = 0 ∧ win2_6.index t (1 : Fin 2) = 0
    ∧ win2_7.index t (0 : Fin 2) = t.val ∧ win2_7.index t (1 : Fin 2) = 0 :=
  (by decide +kernel : ∀ t : Fin grid2.N, _)

/-- The adjacency's block at point `t` is its rows from 400 t. -/
theorem adj_block (c : Dev nD) (t : Fin cfg2.N) :
    (iblk2 V c 0 t : Vec Ideal S400x10000 .f32) = Gcn.rowsAt 400 (400 * t.val) (rows_le t) (V c main_arg1) := by
  obtain ⟨e0, e1, -⟩ := index_maps t
  funext j
  unfold iblk2
  rw [View.read_apply]
  show V c main_arg1 _ = V c main_arg1 _
  congr 1
  funext a
  apply Fin.ext
  match a with
  | ⟨0, _⟩ => show win2_0.index t (0 : Fin 2) * 400 + 1 * (j 0).val = 400 * t.val + (j 0).val; rw [e0]; omega
  | ⟨1, _⟩ => show win2_0.index t (1 : Fin 2) * 10000 + 1 * (j 1).val = (j 1).val; rw [e1]; omega

/-- The column's block at point `t` is its rows from 400 t. -/
theorem col_block (c : Dev nD) (t : Fin cfg2.N) :
    (iblk2 V c 1 t : Vec Ideal S400x1 .f32) = Gcn.rowsAt 400 (400 * t.val) (rows_le t) (V c main_v3_0) := by
  obtain ⟨-, -, e0, e1, -⟩ := index_maps t
  funext j
  unfold iblk2
  rw [View.read_apply]
  show V c main_v3_0 _ = V c main_v3_0 _
  congr 1
  funext a
  apply Fin.ext
  match a with
  | ⟨0, _⟩ => show win2_1.index t (0 : Fin 2) * 400 + 1 * (j 0).val = 400 * t.val + (j 0).val; rw [e0]; omega
  | ⟨1, _⟩ => show win2_1.index t (1 : Fin 2) * 1 + 1 * (j 1).val = (j 1).val; rw [e1]; omega

/-- The row of scales is read whole at every point. -/
theorem row_block (c : Dev nD) (t : Fin cfg2.N) : (iblk2 V c 2 t : Vec Ideal S1x10000 .f32) = V c main_v4 := by
  obtain ⟨-, -, -, -, e0, e1, -⟩ := index_maps t
  funext j
  unfold iblk2
  rw [View.read_apply]
  show V c main_v4 _ = V c main_v4 _
  congr 1
  funext a
  apply Fin.ext
  match a with
  | ⟨0, _⟩ => show win2_2.index t (0 : Fin 2) * 1 + 1 * (j 0).val = (j 0).val; rw [e0]; omega
  | ⟨1, _⟩ => show win2_2.index t (1 : Fin 2) * 10000 + 1 * (j 1).val = (j 1).val; rw [e1]; omega

/-- The second dense product is read whole at every point. -/
theorem dense_block (c : Dev nD) (t : Fin cfg2.N) : (iblk2 V c 3 t : Vec Ideal S10000x512 .bf16) = V c main_v6 := by
  obtain ⟨-, -, -, -, -, -, e0, e1, -⟩ := index_maps t
  funext j
  unfold iblk2
  rw [View.read_apply]
  show V c main_v6 _ = V c main_v6 _
  congr 1
  funext a
  apply Fin.ext
  match a with
  | ⟨0, _⟩ => show win2_3.index t (0 : Fin 2) * 10000 + 1 * (j 0).val = (j 0).val; rw [e0]; omega
  | ⟨1, _⟩ => show win2_3.index t (1 : Fin 2) * 512 + 1 * (j 1).val = (j 1).val; rw [e1]; omega

/-- The bias row is read whole at every point. -/
theorem bias_block (c : Dev nD) (t : Fin cfg2.N) : (iblk2 V c 4 t : Vec Ideal S1x512 .f32) = V c main_v1 := by
  obtain ⟨-, -, -, -, -, -, -, -, e0, e1, -⟩ := index_maps t
  funext j
  unfold iblk2
  rw [View.read_apply]
  show V c main_v1 _ = V c main_v1 _
  congr 1
  funext a
  apply Fin.ext
  match a with
  | ⟨0, _⟩ => show win2_4.index t (0 : Fin 2) * 1 + 1 * (j 0).val = (j 0).val; rw [e0]; omega
  | ⟨1, _⟩ => show win2_4.index t (1 : Fin 2) * 512 + 1 * (j 1).val = (j 1).val; rw [e1]; omega

/-- The head's weights are read whole at every point. -/
theorem weight_block (c : Dev nD) (t : Fin cfg2.N) : (iblk2 V c 5 t : Vec Ideal S512x1 .f32) = V c main_arg6 := by
  obtain ⟨-, -, -, -, -, -, -, -, -, -, e0, e1, -⟩ := index_maps t
  funext j
  unfold iblk2
  rw [View.read_apply]
  show V c main_arg6 _ = V c main_arg6 _
  congr 1
  funext a
  apply Fin.ext
  match a with
  | ⟨0, _⟩ => show win2_5.index t (0 : Fin 2) * 512 + 1 * (j 0).val = (j 0).val; rw [e0]; omega
  | ⟨1, _⟩ => show win2_5.index t (1 : Fin 2) * 1 + 1 * (j 1).val = (j 1).val; rw [e1]; omega

/-- The head's bias is read whole at every point. -/
theorem headbias_block (c : Dev nD) (t : Fin cfg2.N) : (iblk2 V c 6 t : Vec Ideal S1x1 .f32) = V c main_v2 := by
  obtain ⟨-, -, -, -, -, -, -, -, -, -, -, -, e0, e1, -⟩ := index_maps t
  funext j
  unfold iblk2
  rw [View.read_apply]
  show V c main_v2 _ = V c main_v2 _
  congr 1
  funext a
  apply Fin.ext
  match a with
  | ⟨0, _⟩ => show win2_6.index t (0 : Fin 2) * 1 + 1 * (j 0).val = (j 0).val; rw [e0]; omega
  | ⟨1, _⟩ => show win2_6.index t (1 : Fin 2) * 1 + 1 * (j 1).val = (j 1).val; rw [e1]; omega

/-- What the output array holds after the pass, as a function of the seven arrays the pass is entered with. -/
abbrev out (c : Dev nD) : Gcn.Mat 10000 1 :=
  Gcn.head (V c main_arg1) (V c main_v3_0) (V c main_v4) (V c main_v6) (V c main_v1) (V c main_arg6) (V c main_v2)

/-- WHAT POINT `t` WRITES BACK is block `t` of the result of the entry arrays: the body computes the result of its blocks,
    two of which are rows of their arrays, and the result's rows depend on those rows only. -/
theorem flushed_eq (c : Dev nD) (t : Fin cfg2.N) :
    (dat2 V c).flushed 7 t = ((cfg2.win 7).blk t).view.read (Elt Ideal) (out V c) := by
  show (cfg2.win 7).cut (grid2.coords t) ((dat2 V c).after 7 t) = _
  rw [after2_7]
  unfold out2_7
  rw [View.canon_unit_zero hz]
  simp only [View.ld_unit_zero (S := S400x10000) hz, View.ld_unit_zero (S := S400x1) hz, View.ld_unit_zero (S := S1x10000) hz,
    View.ld_unit_zero (S := S10000x512) hz, View.ld_unit_zero (S := S1x512) hz, View.ld_unit_zero (S := S512x1) hz,
    View.ld_unit_zero (S := S1x1) hz]
  rw [Kernel.head_store, adj_block V c t, col_block V c t, row_block V c t, dense_block V c t, bias_block V c t, weight_block V c t,
    headbias_block V c t, ← Gcn.head_rowsAt 400 (400 * t.val) (rows_le t)]
  obtain ⟨-, -, -, -, -, -, -, -, -, -, -, -, -, -, e0, e1⟩ := index_maps t
  funext j
  rw [View.read_apply]
  show out V c _ = out V c _
  congr 1
  funext a
  apply Fin.ext
  match a with
  | ⟨0, _⟩ => show 400 * t.val + (j 0).val = win2_7.index t (0 : Fin 2) * 400 + 1 * (j 0).val; rw [e0]; omega
  | ⟨1, _⟩ => show (j 1).val = win2_7.index t (1 : Fin 2) * 1 + 1 * (j 1).val; rw [e1]; omega

/-- An index of the output array is in point `t`'s block iff each coordinate is in the block's range on its axis. -/
theorem mem_blk (t : Fin cfg2.N) (i : S10000x1.Idx) :
    i ∈ ((cfg2.win 7).blk t).view.set ↔ ∀ a : Fin 2, win2_7.index t a * S400x1.size a ≤ (i a).val ∧ (i a).val < win2_7.index t a * S400x1.size a + S400x1.size a := by
  show i ∈ ((View.whole main_v7).slice (win2_7.rect t)).set ↔ _
  rw [View.set_slice_whole, Rect.mem_set_unit]
  exact Iff.rfl

/-- Row r is written by point r / 400. -/
theorem cover (i : S10000x1.Idx) : ∃ t : Fin cfg2.N, (cfg2.win 7).flush t = true ∧ i ∈ ((cfg2.win 7).blk t).view.set := by
  have hi0 : (i 0).val < 10000 := (i 0).isLt
  have hi1 : (i 1).val < 1 := (i 1).isLt
  refine ⟨⟨(i 0).val / 400, by have hN : cfg2.N = 25 := N_2; omega⟩, flush2_7 _, ?_⟩
  rw [mem_blk]
  obtain ⟨-, -, -, -, -, -, -, -, -, -, -, -, -, -, e0, e1⟩ := index_maps ⟨(i 0).val / 400, by have hN : cfg2.N = 25 := N_2; omega⟩
  intro a
  match a with
  | ⟨0, _⟩ =>
    show win2_7.index _ (0 : Fin 2) * 400 ≤ (i 0).val ∧ (i 0).val < win2_7.index _ (0 : Fin 2) * 400 + 400
    rw [e0]
    show (i 0).val / 400 * 400 ≤ (i 0).val ∧ (i 0).val < (i 0).val / 400 * 400 + 400
    omega
  | ⟨1, _⟩ =>
    show win2_7.index _ (1 : Fin 2) * 1 ≤ (i 1).val ∧ (i 1).val < win2_7.index _ (1 : Fin 2) * 1 + 1
    rw [e1]
    omega

/-- THE OUTPUT ARRAY after the pass is the last layer, with the head's bias, of the arrays the pass is entered with. -/
theorem array_eq (c : Dev nD) : (dat2 V c).arrAt 7 cfg2.N = out V c :=
  (dat2 V c).arrAt_eq_of_cover 7 (out V c) (fun t _ => flushed_eq V c t) cover

end Cert.Gcn.Pass3

end
-- ==== Proof.KernelValue.lean ====
/-
  The kernel program's result array, named: the contents of the buffers at each boundary of @main, walked from the launch
  to the return. The first host stretch recasts the two biases and the head's bias as one-row matrices; the first pass leaves
  the column of scales and the features' dense product; the second stretch recasts the column as a row and narrows the second
  weight matrix (the identity at the exact values); the second pass leaves one whole layer; the third the last layer with the
  head's bias. No stretch and no pass writes an array a later one reads except the ones named here, so every input of every
  pass is a known function of the eight launch arrays, and the result is the specification of them.
-/
import proofs.«162718_g53249004536087_cont_9to1_m_742_17_alg».proof.Proof.Gen.KernelIdeal.Frame
import proofs.«162718_g53249004536087_cont_9to1_m_742_17_alg».proof.Proof.Pass1
import proofs.«162718_g53249004536087_cont_9to1_m_742_17_alg».proof.Proof.Pass2
import proofs.«162718_g53249004536087_cont_9to1_m_742_17_alg».proof.Proof.Pass3
import Idealize.ShloMosaic.Lib.StableHlo.Run
import Idealize.ShloMosaic.Lib.ValueLayout

set_option maxRecDepth 16384

noncomputable section

open Idealize.ShloMosaic Idealize.ShloMosaic.TcCoe Idealize.SL.Sem Idealize.ShloMosaic.ValueIdx
open Idealize.ShloMosaic.Pipeline (Dat)

namespace Cert.Gcn.Chain

open Cert.KernelIdeal Cert.KernelIdeal.Gen

variable (m : (ℓ : Loc nD τ sig) → Buf (Elt Ideal) ℓ) (ρ : Dev nD → PrngReg)

/-- A buffer no operation of the stretch writes holds after it what it held before. -/
local macro "unwritten_by " ops:ident : tactic => `(tactic| (
  refine StableHlo.after_of_forall_not_mem _ _ (List.forall_iff_forall_mem.mp ?_)
  simp only [$ops:ident, List.Forall, StableHlo.reshape_writes, StableHlo.unary_writes, Finset.mem_singleton]
  repeat' apply And.intro
  all_goals exact StableHlo.devRef_ne_of_ne (by decide)))

/-! ## The launch arrays, by name -/

abbrev feats (c : Dev nD) : Gcn.Mat 10000 512 := m ((c : Thread nD τ).loc main_arg0)
abbrev adj (c : Dev nD) : Gcn.Mat 10000 10000 := m ((c : Thread nD τ).loc main_arg1)
abbrev w1 (c : Dev nD) : Gcn.Mat 512 512 := m ((c : Thread nD τ).loc main_arg2)
abbrev b1 (c : Dev nD) : Gcn.Arr1 512 := m ((c : Thread nD τ).loc main_arg3)
abbrev w2 (c : Dev nD) : Gcn.Mat 512 512 := m ((c : Thread nD τ).loc main_arg4)
abbrev b2 (c : Dev nD) : Gcn.Arr1 512 := m ((c : Thread nD τ).loc main_arg5)
abbrev wp (c : Dev nD) : Gcn.Mat 512 1 := m ((c : Thread nD τ).loc main_arg6)
abbrev bp (c : Dev nD) : Gcn.Arr1 1 := m ((c : Thread nD τ).loc main_arg7)

/-! ## Recasts read at an index -/

/-- A vector recast as a one-row matrix is the vector along that row. -/
theorem recast_row {a : ℕ} (b : Gcn.Arr1 a) (h : (⟨1, ![a]⟩ : Shape).ShapeCasts ⟨2, ![1, a]⟩) :
    shapeCast ⟨2, ![1, a]⟩ b h = Gcn.rowOf b := by
  funext i
  obtain ⟨u, q, rfl⟩ : ∃ (u : Fin 1) (q : Fin a), i = ix2 u q := ⟨i 0, i 1, eq_ix2 i⟩
  rw [shapeCast_a_1a_apply]
  rfl

/-- A column recast as a row is the column read along the row. -/
theorem recast_col {a : ℕ} (s : Gcn.Mat a 1) (h : (⟨2, ![a, 1]⟩ : Shape).ShapeCasts ⟨2, ![1, a]⟩) :
    shapeCast ⟨2, ![1, a]⟩ s h = Gcn.asRow s := by
  funext i
  obtain ⟨u, q, rfl⟩ : ∃ (u : Fin 1) (q : Fin a), i = ix2 u q := ⟨i 0, i 1, eq_ix2 i⟩
  refine (shapeCast_apply s h (ix2 u q) (ix2 q (0 : Fin 1)) ?_).trans rfl
  rw [Shape.rowMajor_val_two, Shape.rowMajor_val_two]
  show q.val * 1 + 0 = u.val * a + q.val
  have := u.isLt
  have hu : u.val = 0 := by omega
  rw [hu]
  omega

/-! ## Entering the first pass -/

theorem enter1_adj (c : Dev nD) : V1 m ρ c main_arg1 = adj m c := by
  show StableHlo.after hostOps0 (W0 m ρ c) (Proc.devRef .tc main_arg1) = W0 m ρ c (Proc.devRef .tc main_arg1)
  unwritten_by hostOps0
theorem enter1_feats (c : Dev nD) : V1 m ρ c main_arg0 = feats m c := by
  show StableHlo.after hostOps0 (W0 m ρ c) (Proc.devRef .tc main_arg0) = W0 m ρ c (Proc.devRef .tc main_arg0)
  unwritten_by hostOps0
theorem enter1_w1 (c : Dev nD) : V1 m ρ c main_arg2 = w1 m c := by
  show StableHlo.after hostOps0 (W0 m ρ c) (Proc.devRef .tc main_arg2) = W0 m ρ c (Proc.devRef .tc main_arg2)
  unwritten_by hostOps0
theorem enter1_w2 (c : Dev nD) : V1 m ρ c main_arg4 = w2 m c := by
  show StableHlo.after hostOps0 (W0 m ρ c) (Proc.devRef .tc main_arg4) = W0 m ρ c (Proc.devRef .tc main_arg4)
  unwritten_by hostOps0
theorem enter1_wp (c : Dev nD) : V1 m ρ c main_arg6 = wp m c := by
  show StableHlo.after hostOps0 (W0 m ρ c) (Proc.devRef .tc main_arg6) = W0 m ρ c (Proc.devRef .tc main_arg6)
  unwritten_by hostOps0

/-- The first stretch's three recasts. -/
theorem enter1_b1 (c : Dev nD) : V1 m ρ c main_v0 = Gcn.rowOf (b1 m c) := by
  rw [← recast_row (b1 m c) shapeCasts_S512_S1x512]
  show StableHlo.after hostOps0 (W0 m ρ c) (Proc.devRef .tc main_v0) = _
  after_results
  rfl
theorem enter1_b2 (c : Dev nD) : V1 m ρ c main_v1 = Gcn.rowOf (b2 m c) := by
  rw [← recast_row (b2 m c) shapeCasts_S512_S1x512]
  show StableHlo.after hostOps0 (W0 m ρ c) (Proc.devRef .tc main_v1) = _
  after_results
  rfl
theorem enter1_bp (c : Dev nD) : V1 m ρ c main_v2 = Gcn.rowOf (bp m c) := by
  rw [← recast_row (bp m c) shapeCasts_S1_S1x1]
  show StableHlo.after hostOps0 (W0 m ρ c) (Proc.devRef .tc main_v2) = _
  after_results
  rfl

/-! ## Leaving the first pass -/

theorem leave1_scales (c : Dev nD) : V2 m ρ c main_v3_0 = Gcn.scale (adj m c) :=
  (W2_arr m ρ c 3).trans ((Pass1.scales_array (V1 m ρ) c).trans (by
    show Gcn.scale (V1 m ρ c main_arg1) = _
    rw [enter1_adj]))
theorem leave1_dense (c : Dev nD) : V2 m ρ c main_v3_1 = Gcn.mm (feats m c) (w1 m c) :=
  (W2_arr m ρ c 4).trans ((Pass1.dense_array (V1 m ρ) c).trans (by
    show Gcn.mm (V1 m ρ c main_arg0) (V1 m ρ c main_arg2) = _
    rw [enter1_feats, enter1_w1]))
theorem leave1_adj (c : Dev nD) : V2 m ρ c main_arg1 = adj m c :=
  ((W2_arr m ρ c 0).trans (((dat0 (V1 m ρ) c).arrAt_in 0 rfl _).trans (A_eq0 (V1 m ρ) c 0))).trans (enter1_adj m ρ c)
theorem leave1_w2 (c : Dev nD) : V2 m ρ c main_arg4 = w2 m c :=
  (W2_of_ne m ρ c main_arg4 (by decide)).trans (enter1_w2 m ρ c)
theorem leave1_wp (c : Dev nD) : V2 m ρ c main_arg6 = wp m c :=
  (W2_of_ne m ρ c main_arg6 (by decide)).trans (enter1_wp m ρ c)
theorem leave1_b1 (c : Dev nD) : V2 m ρ c main_v0 = Gcn.rowOf (b1 m c) :=
  (W2_of_ne m ρ c main_v0 (by decide)).trans (enter1_b1 m ρ c)
theorem leave1_b2 (c : Dev nD) : V2 m ρ c main_v1 = Gcn.rowOf (b2 m c) :=
  (W2_of_ne m ρ c main_v1 (by decide)).trans (enter1_b2 m ρ c)
theorem leave1_bp (c : Dev nD) : V2 m ρ c main_v2 = Gcn.rowOf (bp m c) :=
  (W2_of_ne m ρ c main_v2 (by decide)).trans (enter1_bp m ρ c)

/-! ## Entering the second pass -/

theorem enter2_adj (c : Dev nD) : V3 m ρ c main_arg1 = adj m c := by
  refine Eq.trans ?_ (leave1_adj m ρ c)
  show StableHlo.after hostOps1 (W2 m ρ c) (Proc.devRef .tc main_arg1) = W2 m ρ c (Proc.devRef .tc main_arg1)
  unwritten_by hostOps1
theorem enter2_scales (c : Dev nD) : V3 m ρ c main_v3_0 = Gcn.scale (adj m c) := by
  refine Eq.trans ?_ (leave1_scales m ρ c)
  show StableHlo.after hostOps1 (W2 m ρ c) (Proc.devRef .tc main_v3_0) = W2 m ρ c (Proc.devRef .tc main_v3_0)
  unwritten_by hostOps1
theorem enter2_dense (c : Dev nD) : V3 m ρ c main_v3_1 = Gcn.mm (feats m c) (w1 m c) := by
  refine Eq.trans ?_ (leave1_dense m ρ c)
  show StableHlo.after hostOps1 (W2 m ρ c) (Proc.devRef .tc main_v3_1) = W2 m ρ c (Proc.devRef .tc main_v3_1)
  unwritten_by hostOps1
theorem enter2_b1 (c : Dev nD) : V3 m ρ c main_v0 = Gcn.rowOf (b1 m c) := by
  refine Eq.trans ?_ (leave1_b1 m ρ c)
  show StableHlo.after hostOps1 (W2 m ρ c) (Proc.devRef .tc main_v0) = W2 m ρ c (Proc.devRef .tc main_v0)
  unwritten_by hostOps1
theorem enter2_b2 (c : Dev nD) : V3 m ρ c main_v1 = Gcn.rowOf (b2 m c) := by
  refine Eq.trans ?_ (leave1_b2 m ρ c)
  show StableHlo.after hostOps1 (W2 m ρ c) (Proc.devRef .tc main_v1) = W2 m ρ c (Proc.devRef .tc main_v1)
  unwritten_by hostOps1
theorem enter2_bp (c : Dev nD) : V3 m ρ c main_v2 = Gcn.rowOf (bp m c) := by
  refine Eq.trans ?_ (leave1_bp m ρ c)
  show StableHlo.after hostOps1 (W2 m ρ c) (Proc.devRef .tc main_v2) = W2 m ρ c (Proc.devRef .tc main_v2)
  unwritten_by hostOps1
theorem enter2_wp (c : Dev nD) : V3 m ρ c main_arg6 = wp m c := by
  refine Eq.trans ?_ (leave1_wp m ρ c)
  show StableHlo.after hostOps1 (W2 m ρ c) (Proc.devRef .tc main_arg6) = W2 m ρ c (Proc.devRef .tc main_arg6)
  unwritten_by hostOps1

/-- The second stretch recasts the column of scales as a row. -/
theorem enter2_row (c : Dev nD) : V3 m ρ c main_v4 = Gcn.asRow (Gcn.scale (adj m c)) := by
  rw [← leave1_scales m ρ c, ← recast_col (V2 m ρ c main_v3_0) shapeCasts_S10000x1_S1x10000]
  show StableHlo.after hostOps1 (W2 m ρ c) (Proc.devRef .tc main_v4) = _
  after_results
  rfl
/-- The second stretch narrows the second weight matrix: at the exact values, the matrix itself. -/
theorem enter2_w2 (c : Dev nD) : V3 m ρ c main_v5 = w2 m c := by
  rw [← leave1_w2 m ρ c]
  show StableHlo.after hostOps1 (W2 m ρ c) (Proc.devRef .tc main_v5) = _
  after_results
  rfl

/-! ## Leaving the second pass -/

/-- The second pass's output: one whole layer of the launch arrays. -/
abbrev layer1 (c : Dev nD) : Gcn.Mat 10000 512 :=
  Gcn.layer (adj m c) (Gcn.scale (adj m c)) (Gcn.asRow (Gcn.scale (adj m c))) (Gcn.mm (feats m c) (w1 m c)) (Gcn.rowOf (b1 m c)) (w2 m c)

theorem leave2_layer (c : Dev nD) : V4 m ρ c main_v6 = layer1 m c :=
  (W4_arr m ρ c 6).trans ((Pass2.array_eq (V3 m ρ) c).trans (by
    show Gcn.layer (V3 m ρ c main_arg1) (V3 m ρ c main_v3_0) (V3 m ρ c main_v4) (V3 m ρ c main_v3_1) (V3 m ρ c main_v0) (V3 m ρ c main_v5) = _
    rw [enter2_adj, enter2_scales, enter2_row, enter2_dense, enter2_b1, enter2_w2]))
theorem leave2_adj (c : Dev nD) : V4 m ρ c main_arg1 = adj m c :=
  ((W4_arr m ρ c 0).trans (((dat1 (V3 m ρ) c).arrAt_in 0 rfl _).trans (A_eq1 (V3 m ρ) c 0))).trans (enter2_adj m ρ c)
theorem leave2_scales (c : Dev nD) : V4 m ρ c main_v3_0 = Gcn.scale (adj m c) :=
  ((W4_arr m ρ c 1).trans (((dat1 (V3 m ρ) c).arrAt_in 1 rfl _).trans (A_eq1 (V3 m ρ) c 1))).trans (enter2_scales m ρ c)
theorem leave2_row (c : Dev nD) : V4 m ρ c main_v4 = Gcn.asRow (Gcn.scale (adj m c)) :=
  ((W4_arr m ρ c 2).trans (((dat1 (V3 m ρ) c).arrAt_in 2 rfl _).trans (A_eq1 (V3 m ρ) c 2))).trans (enter2_row m ρ c)
theorem leave2_b2 (c : Dev nD) : V4 m ρ c main_v1 = Gcn.rowOf (b2 m c) :=
  (W4_of_ne m ρ c main_v1 (by decide)).trans (enter2_b2 m ρ c)
theorem leave2_wp (c : Dev nD) : V4 m ρ c main_arg6 = wp m c :=
  (W4_of_ne m ρ c main_arg6 (by decide)).trans (enter2_wp m ρ c)
theorem leave2_bp (c : Dev nD) : V4 m ρ c main_v2 = Gcn.rowOf (bp m c) :=
  (W4_of_ne m ρ c main_v2 (by decide)).trans (enter2_bp m ρ c)

/-! ## The result -/

/-- THE RESULT ARRAY at the return is the specification of the eight launch arrays. -/
theorem result_eq (c : Dev nD) :
    W5 m ρ c (Proc.devRef .tc main_v7)
      = Gcn.result (feats m c) (adj m c) (w1 m c) (b1 m c) (w2 m c) (b2 m c) (wp m c) (bp m c) :=
  (W5_arr m ρ c 7).trans ((Pass3.array_eq (V4 m ρ) c).trans (by
    show Gcn.head (V4 m ρ c main_arg1) (V4 m ρ c main_v3_0) (V4 m ρ c main_v4) (V4 m ρ c main_v6) (V4 m ρ c main_v1) (V4 m ρ c main_arg6) (V4 m ρ c main_v2) = _
    rw [leave2_adj, leave2_scales, leave2_row, leave2_layer, leave2_b2, leave2_wp, leave2_bp]
    rfl))

end Cert.Gcn.Chain

end
-- ==== Proof.RefValue.lean ====
/-
  The reference, one stage at a time, is the specification: the row sums and their inverse square roots are `scale`, the two
  products with the spread scales are `normed` (in the reference's own association), each `dot_general` is the matrix
  product, bias and `maximum` with zero are `hidden`, and the last product with the head's bias is `head`.
-/
import proofs.«162718_g53249004536087_cont_9to1_m_742_17_alg».proof.Proof.Gen.ReferenceIdeal.Run
import proofs.«162718_g53249004536087_cont_9to1_m_742_17_alg».proof.Proof.Gen.ReferenceIdeal.Read
import proofs.«162718_g53249004536087_cont_9to1_m_742_17_alg».proof.Proof.Spec

noncomputable section

open Idealize.ShloMosaic Idealize.ShloMosaic.ValueIdx

namespace Cert.Gcn.Ref

open Cert.ReferenceIdeal Cert.ReferenceIdeal.Read

variable (x0 : Gcn.Mat 10000 512) (x1 : Gcn.Mat 10000 10000) (x2 : Gcn.Mat 512 512) (x3 : Gcn.Arr1 512)
  (x4 : Gcn.Mat 512 512) (x5 : Gcn.Arr1 512) (x6 : Gcn.Mat 512 1) (x7 : Gcn.Arr1 1)

/-- The inverse square root of a row's shifted sum: the host's sum starts from zero. -/
theorem scale_stage (r : Fin 10000) : val_main_v3 (F := Ideal) x1 (ix1 r) = Gcn.scale x1 (ix2 r (0 : Fin 1)) := by
  rw [val_main_v3_apply, val_main_v2_apply, val_main_v0_apply, val_main_v1_apply, val_main_cst_0_apply, val_main_cst_apply]
  show Ideal.rsqrt ((Ideal.ofBits .f32 0x00000000#32 + ∑ k : Fin 10000, x1 (idx_main_v0 (ix1 r) k)) + Gcn.eps) = Ideal.rsqrt ((∑ j : Fin 10000, x1 (ix2 r j)) + Gcn.eps)
  rw [Ideal.ofBits_zero_f32, zero_add]
  refine congrArg (fun z => Ideal.rsqrt (z + Gcn.eps)) (Finset.sum_congr rfl fun k _ => congrArg x1 ?_)
  exact funext fun a => Fin.ext (by match a with | ⟨0, _⟩ => rfl | ⟨1, _⟩ => rfl)

/-- The adjacency times the scales spread down the columns, then times the scales spread along the rows. -/
theorem normed_stage : val_main_v9 (F := Ideal) x1 = Gcn.normed x1 (Gcn.scale x1) (Gcn.asRow (Gcn.scale x1)) := by
  funext i
  obtain ⟨p, q, rfl⟩ : ∃ (p : Fin 10000) (q : Fin 10000), i = ix2 p q := ⟨i 0, i 1, eq_ix2 i⟩
  rw [val_main_v9_apply, val_main_v6_apply, val_main_v8_apply, val_main_v7_apply, val_main_v5_apply, val_main_v4_apply]
  have h1 : idx_main_v4 (idx_main_v5 (ix2 p q)) = ix1 p := funext fun a => Fin.ext (by match a with | ⟨0, _⟩ => rfl)
  have h2 : idx_main_v7 (idx_main_v8 (ix2 p q)) = ix1 q := funext fun a => Fin.ext (by match a with | ⟨0, _⟩ => rfl)
  rw [h1, h2, scale_stage, scale_stage]
  rfl

/-- The features' dense product. -/
theorem dense1_stage : val_main_v10 (F := Ideal) x0 x2 = Gcn.mm x0 x2 := by
  funext i
  rw [val_main_v10_apply]
  unfold Gcn.mm
  refine Finset.sum_congr rfl fun k _ => ?_
  have hl : lidx_main_v10 i k = ix2 (Gcn.row i) k := funext fun a => Fin.ext (by match a with | ⟨0, _⟩ => rfl | ⟨1, _⟩ => rfl)
  have hr : ridx_main_v10 i k = ix2 k (Gcn.col i) := funext fun a => Fin.ext (by match a with | ⟨0, _⟩ => rfl | ⟨1, _⟩ => rfl)
  rw [hl, hr]

/-- The first propagation. -/
theorem prop1_stage : val_main_v11 (F := Ideal) x0 x1 x2 = Gcn.mm (val_main_v9 (F := Ideal) x1) (val_main_v10 (F := Ideal) x0 x2) := by
  funext i
  rw [val_main_v11_apply]
  unfold Gcn.mm
  refine Finset.sum_congr rfl fun k _ => ?_
  have hl : lidx_main_v11 i k = ix2 (Gcn.row i) k := funext fun a => Fin.ext (by match a with | ⟨0, _⟩ => rfl | ⟨1, _⟩ => rfl)
  have hr : ridx_main_v11 i k = ix2 k (Gcn.col i) := funext fun a => Fin.ext (by match a with | ⟨0, _⟩ => rfl | ⟨1, _⟩ => rfl)
  rw [hl, hr]

/-- The first hidden activations: bias added along the rows, clamped below at zero. -/
theorem hidden1_stage : val_main_v15 (F := Ideal) x0 x1 x2 x3
    = Gcn.hidden (val_main_v9 (F := Ideal) x1) (val_main_v10 (F := Ideal) x0 x2) (Gcn.rowOf x3) := by
  funext i
  obtain ⟨p, q, rfl⟩ : ∃ (p : Fin 10000) (q : Fin 512), i = ix2 p q := ⟨i 0, i 1, eq_ix2 i⟩
  rw [val_main_v15_apply, val_main_v14_apply, prop1_stage, val_main_v13_apply, val_main_v12_apply, val_main_call0_v0_apply, val_main_call0_cst_apply]
  have h : idx_main_v12 (idx_main_v13 (ix2 p q)) = ix1 q := funext fun a => Fin.ext (by match a with | ⟨0, _⟩ => rfl)
  rw [h]
  show max (Gcn.mm _ _ (ix2 p q) + x3 (ix1 q)) (Ideal.ofBits .f32 0x00000000#32) = _
  rw [Ideal.ofBits_zero_f32]
  rfl

/-- The second dense product. -/
theorem dense2_stage : val_main_v16 (F := Ideal) x0 x1 x2 x3 x4 = Gcn.mm (val_main_v15 (F := Ideal) x0 x1 x2 x3) x4 := by
  funext i
  rw [val_main_v16_apply]
  unfold Gcn.mm
  refine Finset.sum_congr rfl fun k _ => ?_
  have hl : lidx_main_v16 i k = ix2 (Gcn.row i) k := funext fun a => Fin.ext (by match a with | ⟨0, _⟩ => rfl | ⟨1, _⟩ => rfl)
  have hr : ridx_main_v16 i k = ix2 k (Gcn.col i) := funext fun a => Fin.ext (by match a with | ⟨0, _⟩ => rfl | ⟨1, _⟩ => rfl)
  rw [hl, hr]

/-- The second propagation. -/
theorem prop2_stage : val_main_v17 (F := Ideal) x0 x1 x2 x3 x4
    = Gcn.mm (val_main_v9 (F := Ideal) x1) (val_main_v16 (F := Ideal) x0 x1 x2 x3 x4) := by
  funext i
  rw [val_main_v17_apply]
  unfold Gcn.mm
  refine Finset.sum_congr rfl fun k _ => ?_
  have hl : lidx_main_v17 i k = ix2 (Gcn.row i) k := funext fun a => Fin.ext (by match a with | ⟨0, _⟩ => rfl | ⟨1, _⟩ => rfl)
  have hr : ridx_main_v17 i k = ix2 k (Gcn.col i) := funext fun a => Fin.ext (by match a with | ⟨0, _⟩ => rfl | ⟨1, _⟩ => rfl)
  rw [hl, hr]

/-- The second hidden activations. -/
theorem hidden2_stage : val_main_v21 (F := Ideal) x0 x1 x2 x3 x4 x5
    = Gcn.hidden (val_main_v9 (F := Ideal) x1) (val_main_v16 (F := Ideal) x0 x1 x2 x3 x4) (Gcn.rowOf x5) := by
  funext i
  obtain ⟨p, q, rfl⟩ : ∃ (p : Fin 10000) (q : Fin 512), i = ix2 p q := ⟨i 0, i 1, eq_ix2 i⟩
  rw [val_main_v21_apply, val_main_v20_apply, prop2_stage, val_main_v19_apply, val_main_v18_apply, val_main_call1_v0_apply, val_main_call1_cst_apply]
  have h : idx_main_v18 (idx_main_v19 (ix2 p q)) = ix1 q := funext fun a => Fin.ext (by match a with | ⟨0, _⟩ => rfl)
  rw [h]
  show max (Gcn.mm _ _ (ix2 p q) + x5 (ix1 q)) (Ideal.ofBits .f32 0x00000000#32) = _
  rw [Ideal.ofBits_zero_f32]
  rfl

/-- The head's product. -/
theorem head_stage : val_main_v22 (F := Ideal) x0 x1 x2 x3 x4 x5 x6 = Gcn.mm (val_main_v21 (F := Ideal) x0 x1 x2 x3 x4 x5) x6 := by
  funext i
  rw [val_main_v22_apply]
  unfold Gcn.mm
  refine Finset.sum_congr rfl fun k _ => ?_
  have hl : lidx_main_v22 i k = ix2 (Gcn.row i) k := funext fun a => Fin.ext (by match a with | ⟨0, _⟩ => rfl | ⟨1, _⟩ => rfl)
  have hr : ridx_main_v22 i k = ix2 k (Gcn.col i) := funext fun a => Fin.ext (by match a with | ⟨0, _⟩ => rfl | ⟨1, _⟩ => rfl)
  rw [hl, hr]

/-- THE REFERENCE'S RESULT is the specification of its eight arguments. -/
theorem result_eq : val_main_v25 (F := Ideal) x0 x1 x2 x3 x4 x5 x6 x7 = Gcn.result x0 x1 x2 x3 x4 x5 x6 x7 := by
  funext i
  obtain ⟨p, c, rfl⟩ : ∃ (p : Fin 10000) (c : Fin 1), i = ix2 p c := ⟨i 0, i 1, eq_ix2 i⟩
  rw [val_main_v25_apply, head_stage, hidden2_stage, dense2_stage, hidden1_stage, normed_stage, dense1_stage, val_main_v24_apply, val_main_v23_apply]
  have h : idx_main_v23 (idx_main_v24 (ix2 p c)) = ix1 (0 : Fin 1) := funext fun a => Fin.ext (by match a with | ⟨0, _⟩ => rfl)
  rw [h]
  rfl

end Cert.Gcn.Ref

end
-- ==== Proof.lean ====
/-
  A two-layer graph convolution with a linear head, in three passes over the adjacency, against its plain reference.

  Both programs compute, on the extended reals,
      s r   = rsqrt (∑ j, a r j + ε),        An r j = (a r j · s r) · s j,
      out   = relu (An · (relu (An · (x · w1) + b1) · w2) + b2) · wp + bp,
  with the same ε (one single-precision pattern on both sides), the same association of the two scalings, and each sum
  taken over the whole contracted axis. The kernel narrows operands of its matrix products to a shorter float format, which
  at the exact values is the identity, and works on 400 rows at a time: since every piece of the formula is row-local in the
  adjacency, a block of rows of the whole result is the formula at that block's rows, and the 25 blocks tile the 10000 rows.
  No law beyond "a sum over an index set is one number" joins the two sides, so the precondition is never opened.

  The three frames: the two kernel programs' are the generated ones; the reference's is its generated run with the result
  dropped. The idealization rewrote nothing, so `preserves` is `True`. For `algebraic` the kernel program's run is taken again
  with its result array named (the contents the last pass leaves), that array is read back pass by pass to the formula of the
  launch arrays, and the reference's run, read stage by stage, is the same formula of the same arrays.
-/
import proofs.«162718_g53249004536087_cont_9to1_m_742_17_alg».proof.Defs
import proofs.«162718_g53249004536087_cont_9to1_m_742_17_alg».proof.Proof.Gen.Kernel
import proofs.«162718_g53249004536087_cont_9to1_m_742_17_alg».proof.Proof.Gen.Kernel.Frame
import proofs.«162718_g53249004536087_cont_9to1_m_742_17_alg».proof.Proof.Gen.KernelIdeal
import proofs.«162718_g53249004536087_cont_9to1_m_742_17_alg».proof.Proof.Gen.KernelIdeal.Frame
import proofs.«162718_g53249004536087_cont_9to1_m_742_17_alg».proof.Proof.Gen.ReferenceIdeal
import proofs.«162718_g53249004536087_cont_9to1_m_742_17_alg».proof.Proof.Gen.ReferenceIdeal.Run
import proofs.«162718_g53249004536087_cont_9to1_m_742_17_alg».proof.Proof.Gen.ReferenceIdeal.Read
import proofs.«162718_g53249004536087_cont_9to1_m_742_17_alg».proof.Proof.Gen.Pre_finite_inputs
import proofs.«162718_g53249004536087_cont_9to1_m_742_17_alg».proof.Proof.KernelRun
import proofs.«162718_g53249004536087_cont_9to1_m_742_17_alg».proof.Proof.KernelValue
import proofs.«162718_g53249004536087_cont_9to1_m_742_17_alg».proof.Proof.RefValue
import Idealize.ShloMosaic.Adequacy
import Idealize.ShloMosaic.Init

noncomputable section

namespace Cert.Proof

open Idealize.ShloMosaic Idealize.SL.Sem

theorem frame_kernel : Cert.frame_Kernel := fun m ρ _ => Cert.Kernel.Gen.frame m ρ

theorem frame_kernelIdeal : Cert.frame_KernelIdeal := fun m ρ _ => Cert.KernelIdeal.Gen.frame m ρ

theorem frame_referenceIdeal : Cert.frame_ReferenceIdeal := fun m ρ _ =>
  (θ_run Cert.ReferenceIdeal.defs _ _).mono (fun _ h c => (h c).2) (Cert.ReferenceIdeal.Value.run (F := Ideal) m ρ)

theorem preserves : Cert.preserves_Kernel_KernelIdeal := trivial

/-- From memories that agree on the eight arguments both programs end with their result at the one formula of them. -/
theorem algebraic : Cert.algebraic_KernelIdeal_ReferenceIdeal := by
  intro m ρ m' ρ' _ hagree
  refine ⟨fun c => Cert.Gcn.result (Cert.Gcn.Chain.feats m c) (Cert.Gcn.Chain.adj m c) (Cert.Gcn.Chain.w1 m c) (Cert.Gcn.Chain.b1 m c)
    (Cert.Gcn.Chain.w2 m c) (Cert.Gcn.Chain.b2 m c) (Cert.Gcn.Chain.wp m c) (Cert.Gcn.Chain.bp m c), ?_, ?_⟩
  · exact (θ_run Cert.KernelIdeal.defs _ _).mono
      (fun _ h c => ⟨(h c).1.trans (Cert.Gcn.Chain.result_eq m ρ c), (h c).2⟩)
      (Cert.KernelIdeal.Named.run (F := Ideal) m ρ)
  · refine (θ_run Cert.ReferenceIdeal.defs _ _).mono (fun _ h c => ⟨(h c).1.trans ?_, (h c).2⟩)
      (Cert.ReferenceIdeal.Value.run (F := Ideal) m' ρ')
    obtain ⟨a0, a1, a2, a3, a4, a5, a6, a7⟩ := hagree c
    rw [Cert.ReferenceIdeal.Read.val_main_v25_eq, Cert.Gcn.Ref.result_eq, a0, a1, a2, a3, a4, a5, a6, a7]

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
